-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S16384x256 : Shape := ⟨2, ![16384, 256]⟩
abbrev S16384x1 : Shape := ⟨2, ![16384, 1]⟩
abbrev S128x256 : Shape := ⟨2, ![128, 256]⟩
abbrev S2048x256 : Shape := ⟨2, ![2048, 256]⟩
abbrev S128x1 : Shape := ⟨2, ![128, 1]⟩
abbrev S256x2048 : Shape := ⟨2, ![256, 2048]⟩
abbrev S128x2048 : Shape := ⟨2, ![128, 2048]⟩
abbrev S128 : Shape := ⟨1, ![128]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S16384x256, .bf16⟩
  | .hbm, ⟨2, _⟩ => ⟨S16384x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x256, .bf16⟩
  | .local _ .vmem, ⟨1, _⟩ => ⟨S128x256, .bf16⟩
  | .local _ .vmem, ⟨2, _⟩ => ⟨S2048x256, .bf16⟩
  | .local _ .vmem, ⟨3, _⟩ => ⟨S2048x256, .bf16⟩
  | .local _ .vmem, ⟨4, _⟩ => ⟨S128x1, .f32⟩
  | .local _ .vmem, ⟨5, _⟩ => ⟨S128x1, .f32⟩
  | .local _ .vmem, ⟨6, _⟩ => ⟨S128x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![128, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  reduces_S128x2048_S128 : S128x2048.Reduces [1] S128
  shapeCasts_S128_S128x1 : S128.ShapeCasts S128x1
  reducesTo_S16384x1_S_d0_1 : S16384x1.ReducesTo [0, 1] S_
  h_S_ : 0 < S_.numel
  dot_S128x256_S256x2048_S128x2048_1_0_0_1_n_n_wf : DotDims.WF S128x256 S256x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S16384x256.size a
  hwx0_0 : ∀ i : grid0.Coords, EltTy.bits .bf16 = 32 ∨ (Rect.block (s := S16384x256) S128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .bf16 = 32 ∨ (Rect.block (s := S16384x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S16384x1.size a
  hwx0_2 : ∀ i : grid0.Coords, EltTy.bits .f32 = 32 ∨ (Rect.block (s := S16384x1) S128x1.size (cc0_transform_2 i) (hinb0_2 i)).WholeWords (EltTy.packing .f32)

variable [Facts₀]

def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf

abbrev win0_0 : Pipeline.Window sig grid0 :=
  Pipeline.Window.ofSpec (Memref.whole main_v0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x256 : Shape := ⟨2, ![16384, 256]⟩
abbrev S256x16384 : Shape := ⟨2, ![256, 16384]⟩
abbrev S16384x16384 : Shape := ⟨2, ![16384, 16384]⟩
abbrev S_ : Shape := ⟨0, ![]⟩
abbrev S16384 : Shape := ⟨1, ![16384]⟩

abbrev nBuf : Space → Nat
  | .hbm => 14
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x16384, .f32⟩
  | .hbm, ⟨2, _⟩ => ⟨S16384x16384, .f32⟩
  | .hbm, ⟨3, _⟩ => ⟨S_, .f32⟩
  | .hbm, ⟨4, _⟩ => ⟨S16384x16384, .f32⟩
  | .hbm, ⟨5, _⟩ => ⟨S16384x16384, .f32⟩
  | .hbm, ⟨6, _⟩ => ⟨S16384x16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S16384x256_S256x16384_1_0 : S16384x256.Transposes [1, 0] S256x16384
  bcast_S_S16384x16384 : S_.BroadcastsInDim S16384x16384 (![] : Fin 0 → Fin S16384x16384.rank)
  reducesTo_S16384x16384_S16384_d1 : S16384x16384.ReducesTo [1] S16384
  h_S_ : 0 < S_.numel
  reducesTo_S16384_S_d0 : S16384.ReducesTo [0] S_
  dot_S16384x256_S256x16384_S16384x16384_1_0_0_1_n_n_wf : DotDims.WF S16384x256 S256x16384 S16384x16384 [1] [0] [0] [1] [] []

variable [Facts₀]

def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf

class Facts : Prop extends Facts₀ where

variable [Facts]
-- ==== Proof.KBase.lean ====
/-
  What every part of the kernel program's frame is stated over.

  The program converts the matrix to the narrow format (one host line), runs the kernel on a grid of 128 row blocks by
  8 column blocks, and then sums the kernel's column of 16384 numbers and divides by 100 (four host lines). The
  kernel reads the converted matrix through TWO windows: window 0 is the block of 128 rows the point's first coordinate
  selects, window 1 the block of 2048 rows its second coordinate selects. Window 2 is the result column's block of
  128 entries, written back when the second coordinate reaches 7. Between points the kernel keeps a column of 128
  running sums in a scratch buffer: it is reset when the second coordinate is 0, added to at every point, and its
  logarithm stored into window 2's buffer when the second coordinate is 7.

  Here: the buffer contents when the kernel region is entered (`V`), the windows' blocks read off them (`iblk`), the
  two conditions of the body in closed form over the 1024 points (second coordinate 0: the points ≡ 0 mod 8; second
  coordinate 7: the points ≡ 7 mod 8), where window 2 is idle and where it is written back, and names for the staging
  and scratch memrefs the body is called with.
-/
import proofs.«136624_j59433757442322_1_alg».proof.Proof.Gen.Kernel.Launch
import proofs.«136624_j59433757442322_1_alg».proof.Proof.Gen.Kernel.Skeleton
import proofs.«136624_j59433757442322_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- The TensorCore buffers' contents when the region is entered: the launch contents after the one host line before
    it (the conversion of the argument matrix to the narrow format). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The argument matrix is not written by the line before the region. -/
theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index
    has not moved), for any proof data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition of the body (the point's second coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second condition of the body (the point's second coordinate is 7). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the second condition fails the body stores nothing into window 2: the window is idle there, -/
theorem idleAt0_2 : ∀ t : Fin cfg0.N, ¬cond0_1 (grid0.coords t) → cfg0.idle 2 (grid0.coords t) = true := by decide +kernel
/-- and its block is not written back. -/
theorem noFlush0_2 : ∀ t : Fin cfg0.N, ¬cond0_1 (grid0.coords t) → (cfg0.win 2).flush t = false := by decide +kernel
/-- Where it holds the window is live. -/
theorem liveAt0_2 : ∀ t : Fin cfg0.N, cond0_1 (grid0.coords t) → cfg0.idle 2 (grid0.coords t) = false := by decide +kernel

/-! ## The memrefs the body is called with -/

/-- One staging buffer of window 2, through which its contents are stated. -/
abbrev VO0_2 : View sig .tc .vmem S128x1 .f32 := (Memref.whole cc0_stg2_0 : Memref sig .tc .vmem S128x1 .f32).view
/-- Each window's current staging memref at point `t`, and its wholeness. -/
abbrev ms0_0 (t : Fin cfg0.N) : Memref sig .tc .vmem S128x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
/-- The scratch column of running sums, a whole scoped buffer of the kernel's own, -/
abbrev scM0_0 : Memref sig .tc .vmem S128x1 .f32 := Memref.whole cc0_scratch0
/-- and as a view: what it holds is stated through it. -/
abbrev VS0_0 : View sig .tc .vmem S128x1 .f32 := scM0_0.view

/-- The scoped buffers no window stages are the scratch column alone, owned whole at some contents. -/
theorem scoped0_eq (c : Dev nD) :
    (Pipeline.scopedRest spec0 c : sProp 𝕄) = iprop(∃ d, owns (c : Thread nD τ) scM0_0 fullShare d) := by
  rw [scopedRest0_eq]; simp only [scM0_0, owns_whole]; try rfl

end Cert.Kernel.Hand

end
-- ==== Proof.KRunA.lean ====
/-
  The kernel body run once at a point whose second coordinate is 0 (first condition taken, second not): the scratch
  column is reset to zero, the two input blocks and the column just reset are loaded, the block's row sums of
  exponentials are added and stored back; nothing is stored into window 2's buffer, which is handed back as found.
  The pieces the stores leave in the scratch column are found by the symbolic run and are its witness.
-/
import proofs.«136624_j59433757442322_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a resetting point, on whole memrefs: the inputs' buffers at their contents, window 2's at contents
    handed back untouched, the scratch at anything; it ends with the scratch holding the pieces the run finds. -/
noncomputable def kernelRun0_A (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : cond0_0 i) (hc1 : ¬cond0_1 i)
    (x0 : Vec F S128x256 .bf16) (x1 : Vec F S2048x256 .bf16) :
    Σ' (L2 : List (View.Piece (Elt F) S128x1 .f32)), { LS0 : List (View.Piece (Elt F) S128x1 .f32) //
      ∀ (xi2 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨[], ?_, fun xi2 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KRunB.lean ====
/-
  The kernel body run once at a point whose second coordinate is 1 to 6 (neither condition taken): the two input
  blocks and the scratch column are loaded, the block's row sums of exponentials are added to the column and stored
  back; nothing is stored into window 2's buffer, which is handed back as found.
-/
import proofs.«136624_j59433757442322_1_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at an accumulating point, on whole memrefs: the inputs' buffers at their contents, window 2's at contents
    handed back untouched, the scratch at what the point before left; it ends with the scratch holding the pieces the
    run finds. -/
noncomputable def kernelRun0_B (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : ¬cond0_1 i)
    (x0 : Vec F S128x256 .bf16) (x1 : Vec F S2048x256 .bf16) (xs0 : Vec F S128x1 .f32) :
    Σ' (L2 : List (View.Piece (Elt F) S128x1 .f32)), { LS0 : List (View.Piece (Elt F) S128x1 .f32) //
      ∀ (xi2 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨[], ?_, fun xi2 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KRunC.lean ====
/-
  The kernel body run once at a point whose second coordinate is 7 (second condition taken, first not): the two
  input blocks and the scratch column are loaded, the block's row sums of exponentials are added to the column and
  stored back; then the column is loaded again and its logarithm stored into window 2's buffer, covering it.
-/
import proofs.«136624_j59433757442322_1_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a closing point, on whole memrefs: the inputs' buffers at their contents, window 2's at anything, the
    scratch at what the point before left; it ends with the scratch and window 2's buffer holding the pieces the run
    finds. -/
noncomputable def kernelRun0_C (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) :
    Σ' (L2 : List (View.Piece (Elt F) S128x1 .f32)), { LS0 : List (View.Piece (Elt F) S128x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨?_, ?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KData.lean ====
/-
  The region's proof data and its body obligation.

  Per point the body is in one of three cases, by the point's second coordinate: 0 (the running sums are reset, then
  added to), 1 to 6 (added to), 7 (added to, then their logarithm stored into window 2's buffer). What the scratch
  column holds after each point is defined by recursion on the point (`outsAt0`, second component): the case's stores
  read back, over what the point before left. Window 2's buffer is written only at the points of the third case
  (`outsAt0`, first component); elsewhere the window is idle and its buffer is handed back as found. The invariant
  between points is the scratch column at exactly those contents (before the first point: at anything). The two input
  windows hold the two halves of the shared array's share.
-/
import proofs.«136624_j59433757442322_1_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Contents nothing consults: window 2's `after` at a point where the window is idle. -/
def dummy2 : Vec F S128x1 .f32 := VO0_2.read (Elt F) VO0_2.junk

/-- The first case's stores cover the scratch column. -/
theorem scover0_A_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : cond0_0 i) (hc1 : ¬cond0_1 i)
    (x0 : Vec F S128x256 .bf16) (x1 : Vec F S2048x256 .bf16) (y : S128x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x1.size (by sl_kernel_rfl) y

/-- What the first case leaves in the scratch column: its stores read back. -/
def sout0_A_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : cond0_0 i) (hc1 : ¬cond0_1 i)
    (x0 : Vec F S128x256 .bf16) (x1 : Vec F S2048x256 .bf16) : Vec F S128x1 .f32 :=
  VS0_0.read (Elt F) (VS0_0.writes (Elt F) VS0_0.junk (kernelRun0_A c i arg2 harg2 arg3 harg3 arg4 harg4 arg5 harg5 hc0 hc1 x0 x1).2.1)

/-- The second case's store covers the scratch column. -/
theorem scover0_B_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : ¬cond0_1 i)
    (x0 : Vec F S128x256 .bf16) (x1 : Vec F S2048x256 .bf16) (xs0 : Vec F S128x1 .f32) (y : S128x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x1.size (by sl_kernel_rfl) y

/-- What the second case leaves in the scratch column. -/
def sout0_B_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : ¬cond0_1 i)
    (x0 : Vec F S128x256 .bf16) (x1 : Vec F S2048x256 .bf16) (xs0 : Vec F S128x1 .f32) : Vec F S128x1 .f32 :=
  VS0_0.read (Elt F) (VS0_0.writes (Elt F) VS0_0.junk (kernelRun0_B c i arg2 harg2 arg3 harg3 arg4 harg4 arg5 harg5 hc0 hc1 x0 x1 xs0).2.1)

/-- The third case's store into window 2's buffer covers it. -/
theorem cover0_C_2 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) (y : S128x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S128x1.size (by sl_kernel_rfl) y

/-- What the third case leaves in window 2's buffer. -/
def out0_C_2 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) : Vec F S128x1 .f32 :=
  VO0_2.read (Elt F) (VO0_2.writes (Elt F) VO0_2.junk (kernelRun0_C c i arg2 harg2 arg3 harg3 arg4 harg4 arg5 harg5 hc0 hc1 x0 x1 xs0).1)

/-- The third case's store covers the scratch column. -/
theorem scover0_C_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) (y : S128x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x1.size (by sl_kernel_rfl) y

/-- What the third case leaves in the scratch column. -/
def sout0_C_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) : Vec F S128x1 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- The closed forms of the two conditions exclude each other's residues. -/
theorem not_c1_of_mod0 (t : Fin cfg0.N) (h0 : t.val % 8 = 0) : ¬cond0_1 (grid0.coords t) :=
  fun h => by have h7 := (hcond0_1 t).mp h; omega
theorem not_c0_of_ne (t : Fin cfg0.N) (h0 : ¬t.val % 8 = 0) : ¬cond0_0 (grid0.coords t) :=
  fun h => h0 ((hcond0_0 t).mp h)
theorem not_c1_of_ne (t : Fin cfg0.N) (h1 : ¬t.val % 8 = 7) : ¬cond0_1 (grid0.coords t) :=
  fun h => h1 ((hcond0_1 t).mp h)

/-- THE ACCUMULATION. After the body at position `n`: what window 2's buffer holds (first component; a placeholder where
    the window is idle) and what the scratch column holds (second component) — the case the position's residue mod 8
    selects, run on the point's memrefs and input blocks, over the scratch contents the position before left. -/
def outsAt0 (c : Dev nD) : (n : ℕ) → n < cfg0.N → Vec F S128x1 .f32 × Vec F S128x1 .f32
  | 0, hn => (dummy2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (not_c1_of_mod0 ⟨0, hn⟩ (Nat.zero_mod _)) (iblk m c 0 ⟨0, hn⟩) (iblk m c 1 ⟨0, hn⟩))
  | n + 1, hn =>
    if h0 : (n + 1) % 8 = 0 then
      (dummy2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (not_c1_of_mod0 ⟨n + 1, hn⟩ h0) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_c0_of_ne ⟨n + 1, hn⟩ h0) ((hcond0_1 ⟨n + 1, hn⟩).mpr h1) (iblk m c 0 ⟨n + 1, hn⟩) (iblk m c 1 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_c0_of_ne ⟨n + 1, hn⟩ h0) ((hcond0_1 ⟨n + 1, hn⟩).mpr h1) (iblk m c 0 ⟨n + 1, hn⟩) (iblk m c 1 ⟨n + 1, hn⟩) (outsAt0 c n (Nat.lt_of_succ_lt hn)).2)
      else
        (dummy2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_c0_of_ne ⟨n + 1, hn⟩ h0) (not_c1_of_ne ⟨n + 1, hn⟩ h1) (iblk m c 0 ⟨n + 1, hn⟩) (iblk m c 1 ⟨n + 1, hn⟩) (outsAt0 c n (Nat.lt_of_succ_lt hn)).2)

/-- `outsAt0` at a resetting point. -/
theorem outsAt0_A (c : Dev nD) (t : Fin cfg0.N) (h0 : t.val % 8 = 0) :
    outsAt0 m c t.val t.isLt = (dummy2, sout0_A_0 c (grid0.coords t) (ms0_0 t) (hs0_0 t) (ms0_1 t) (hs0_1 t) (ms0_2 t) (hs0_2 t) scM0_0 (Memref.isWhole_whole _) ((hcond0_0 t).mpr h0) (not_c1_of_mod0 t h0) (iblk m c 0 t) (iblk m c 1 t)) := by
  obtain ⟨n, hn⟩ := t
  cases n with
  | zero => exact rfl
  | succ n => exact (dif_pos h0).trans rfl

/-- `outsAt0` at an accumulating point: over what the point before left. -/
theorem outsAt0_B (c : Dev nD) (t : Fin cfg0.N) (h0 : ¬t.val % 8 = 0) (h1 : ¬t.val % 8 = 7) :
    outsAt0 m c t.val t.isLt = (dummy2, sout0_B_0 c (grid0.coords t) (ms0_0 t) (hs0_0 t) (ms0_1 t) (hs0_1 t) (ms0_2 t) (hs0_2 t) scM0_0 (Memref.isWhole_whole _) (not_c0_of_ne t h0) (not_c1_of_ne t h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a closing point: over what the point before left. -/
theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (not_c0_of_ne t h0) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (not_c0_of_ne t h0) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the scratch column at anything; afterwards at what the
    point before left in it. -/
def PhiS (c : Dev nD) : (n : ℕ) → n ≤ cfg0.N → sProp 𝕄
  | 0, _ => Pipeline.scopedRest spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The region's proof data on core `c`: the arrays as the region finds them; after the body each input's buffer at its
    block, window 2's at `outsAt0`'s first component; the invariant `PhiS`; the shared array's share dealt in halves to
    the two input windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem q0_eq (c : Dev nD) : (dats m 0 c).q 0 = fullShare.left := rfl
theorem q1_eq (c : Dev nD) : (dats m 0 c).q 1 = fullShare.right := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves0_2_live (c : Dev nD) (t : Fin cfg0.N) (h : cond0_1 (grid0.coords t)) :
    (dats m 0 c).leavesExact 2 t = owns (c : Thread nD τ) (ms0_2 t) fullShare ((dats m 0 c).after 2 t) := by
  unfold Dat.leavesExact; rw [liveAt0_2 t h]

set_option maxHeartbeats 4800000 in
/-- The body at any point: the inputs' buffers hold their blocks; the point's residue mod 8 says which case it is in;
    the invariant hands the body the scratch column at what the point before left (at anything at the first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, after0_0, after0_1]
  have hN : t.val < 1024 := lt_of_lt_of_eq t.isLt (show cfg0.N = 1024 from N_0)
  by_cases h0 : t.val % 8 = 0
  · have hc1 : ¬cond0_1 (grid0.coords t) := not_c1_of_mod0 t h0
    rw [Dat.leavesExact_idle (dats m 0 c) 2 t (idleAt0_2 t hc1) (noFlush0_2 t hc1)]
    rw [outsAt0_A m c t h0]
    unfold sout0_A_0; (try dsimp only)
    by_cases hz : t.val = 0
    · rw [PhiS_castSucc m c t, PhiS_zero m c _ _ hz, scoped0_eq]
      iintro ⟨HS0, Ho, ⟨%d0, H0⟩, ⟨%d1, H1⟩, ⟨%d2, H2⟩⟩
      iapply ((kernelRun0_A c (grid0.coords t) _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 8 = 7
    · have hc1 : cond0_1 (grid0.coords t) := (hcond0_1 t).mpr h1
      rw [leaves0_2_live m c t hc1, after0_2]
      rw [outsAt0_C m c t h0 h1]
      unfold out0_C_2 sout0_C_0; (try dsimp only)
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (not_c0_of_ne t h0) hc1 (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hc1 : ¬cond0_1 (grid0.coords t) := not_c1_of_ne t h1
      rw [Dat.leavesExact_idle (dats m 0 c) 2 t (idleAt0_2 t hc1) (noFlush0_2 t hc1)]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (not_c0_of_ne t h0) hc1 (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch column back, its contents forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 1024 := N_0; omega), scoped0_eq]
  iintro HS0
  iexists _; iexact HS0

end Cert.Kernel.Hand

end
-- ==== Proof.KTail.lean ====
/-
  What the four lines after the kernel region compute from the result column: its sum, from zero, divided by 100.
-/
import proofs.«136624_j59433757442322_1_alg».proof.Proof.Gen.Kernel

noncomputable section

namespace Cert.Kernel.Hand

open Cert.Kernel Cert.Kernel.Gen
open Idealize.ShloMosaic

variable {F : FTy → Type} [FloatOps F]

/-- The lines' value of the result column. -/
def tailVal (y : (⟨S16384x1, .f32⟩ : BufTy).Contents (Elt F)) : (⟨S_, .f32⟩ : BufTy).Contents (Elt F) :=
  Host.divf (Host.reduceAdd y (constant S_ .f32 0x00000000#32) reducesTo_S16384x1_S_d0_1 h_S_) (constant S_ .f32 0x42C80000#32)

end Cert.Kernel.Hand

end
-- ==== Proof.KLaunch.lean ====
/-
  The launch of the kernel program: from proof data for the one kernel region, its body obligation and the invariant's
  two ends, to the run of @main — the conversion line, the region, the four lines after it.

  The kernel is handed the converted matrix through two windows, so the array's one buffer is dealt between them: window 0
  holds its left half share, window 1 its right half share (both only read it), and the result column is window 2's
  outright. After the region the two halves are still there and nothing reads them again; the four lines after the region
  read the result column and write four scalars no window names, so they run holding the result column and the buffers
  that bypassed the region. The run ends with the last scalar at the lines' value of the result column the kernel
  wrote, and the argument matrix as it was.
-/
import proofs.«136624_j59433757442322_1_alg».proof.Proof.KBase
import proofs.«136624_j59433757442322_1_alg».proof.Proof.KTail
import Idealize.ShloMosaic.Lib.Pipeline.Launch
import Idealize.ShloMosaic.Lib.Pipeline.Kit
import Idealize.ShloMosaic.Lib.Pipeline.Frame
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers' contents when the region has ended: as at its entry, but the result column at `y`. -/
def Wexit (c : Dev nD) (y : (⟨S16384x1, .f32⟩ : BufTy).Contents (Elt F)) : Valuation τ sig (Elt F) :=
  Function.update (V0 m c) (Proc.devRef .tc main_v1) y

/-- and after the four lines that follow it. -/
def Wend (c : Dev nD) (y : (⟨S16384x1, .f32⟩ : BufTy).Contents (Elt F)) : Valuation τ sig (Elt F) :=
  StableHlo.after hostOps1 (Wexit m c y)

/-- The last scalar after the lines: the lines' value of the result column. -/
theorem Wend_v3 (c : Dev nD) (y : (⟨S16384x1, .f32⟩ : BufTy).Contents (Elt F)) :
    Wend m c y (Proc.devRef .tc main_v3) = tailVal y := by
  unfold Wend tailVal
  after_results
  unfold Wexit
  rw [Function.update_self]

/-- No line after the region writes the argument matrix, and the line before it does not either. -/
theorem Wend_arg0 (c : Dev nD) (y : (⟨S16384x1, .f32⟩ : BufTy).Contents (Elt F)) :
    Wend m c y (Proc.devRef .tc main_arg0) = m ((c.tc : Thread nD τ).loc main_arg0) := by
  unfold Wend
  after_results
  unfold Wexit
  rw [Function.update_of_ne (StableHlo.devRef_ne_of_ne (by decide))]
  rfl

/-- The two buffers behind the three windows' arrays, each whole at the full share at the entry contents, make the proof
    data's arrays at entry: the converted matrix's full share is dealt into its two halves, one per input window, and
    the result column goes to the output window whole. -/
theorem hsplit_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right) (c : Dev nD) :
    (Pipeline.arrBufs spec0 c (V m c) : sProp 𝕄) ⊢ (dats 0 c).arrays ((dats 0 c).arrAt · 0) := by
  have hs0 : (dats 0 c).share 0 = fullShare.left := hq0 c
  have hs1 : (dats 0 c).share 1 = fullShare.right := hq1 c
  have hs2 : (dats 0 c).share 2 = fullShare := rfl
  have ha0 : (dats 0 c).arrAt 0 0 = V m c main_v0 := hA c 0
  have ha1 : (dats 0 c).arrAt 1 0 = V m c main_v0 := hA c 1
  have ha2 : (dats 0 c).arrAt 2 0 = V m c main_v1 := hA c 2
  unfold Pipeline.arrBufs Pipeline.Dat.arrays
  rw [bigSep_eq_bigSepL_of_eq [main_v0, main_v1] (by decide) (by decide), bigSep_W0]
  beta_reduce
  rw [(arr_whole0 0).set_eq_univ, (arr_whole0 2).set_eq_univ, hs0, hs1, hs2, ha0, ha1, ha2]
  show iprop((((c.tc : Thread nD τ).loc main_v0) ↦{fullShare} V m c main_v0) ∗ (((c.tc : Thread nD τ).loc main_v1) ↦{fullShare} V m c main_v1)) ⊢ _
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- The buffers the lines after the region run within: the result column and the buffers that bypass the region. -/
def tailS : Finset (DevRef τ sig) :=
  (insert main_v1 (Pipeline.restRefs sig spec0)).map ⟨Proc.devRef (sig := sig) (.tc : Proc τ), Proc.devRef_injective _⟩

/-- The result column is a window's array, so it is none of the buffers that bypass the region. -/
theorem main_v1_not_rest : main_v1 ∉ Pipeline.restRefs sig spec0 :=
  fun h => (Finset.mem_sdiff.mp h).2 (Finset.mem_image.mpr ⟨2, Finset.mem_univ _, rfl⟩)

theorem mem_tailS_rest (r : Ref sig .tc) (h : r ∈ Pipeline.restRefs sig spec0) : Proc.devRef (τ := τ) .tc r ∈ tailS :=
  Finset.mem_map_of_mem _ (Finset.mem_insert_of_mem h)

theorem mem_tailS_v1 : Proc.devRef (τ := τ) .tc main_v1 ∈ tailS :=
  Finset.mem_map_of_mem _ (Finset.mem_insert_self _ _)

/-- Those buffers held at a valuation: the result column, and the bypassing buffers. -/
theorem held_tailS (c : Dev nD) (W : Valuation τ sig (Elt F)) :
    (StableHlo.held (c.tc : Thread nD τ) tailS W : sProp 𝕄)
      = iprop((((c.tc : Thread nD τ).loc main_v1) ↦{fullShare} W (Proc.devRef .tc main_v1))
          ∗ Pipeline.unscopedRest spec0 c (fun b => W (Proc.devRef .tc b))) := by
  unfold StableHlo.held tailS Pipeline.unscopedRest
  rw [bigSep_map, bigSep_insert main_v1_not_rest]
  rfl

/-- At the region's exit the bypassing buffers are as at its entry. -/
theorem rest_Wexit (c : Dev nD) (y : (⟨S16384x1, .f32⟩ : BufTy).Contents (Elt F)) :
    (Pipeline.unscopedRest spec0 c (fun b => Wexit m c y (Proc.devRef .tc b)) : sProp 𝕄) = Pipeline.unscopedRest spec0 c (V m c) := by
  unfold Pipeline.unscopedRest
  exact bigSep_congr fun b hb => by
    unfold Wexit
    beta_reduce
    rw [Function.update_of_ne (StableHlo.devRef_ne_of_ne fun e : b = main_v1 => main_v1_not_rest (e ▸ hb))]

/-- No line after the region writes the result column. -/
theorem Wend_v1 (c : Dev nD) (y : (⟨S16384x1, .f32⟩ : BufTy).Contents (Elt F)) :
    Wend m c y (Proc.devRef .tc main_v1) = y := by
  unfold Wend
  after_results
  unfold Wexit
  rw [Function.update_self]

/-- Each line after the region touches only the result column and bypassing buffers. -/
theorem tail_sub : ∀ ops ∈ ([hostOps1] : List (List (HloOp τ sig (Elt F)))), ∀ op ∈ ops, op.bufs ⊆ tailS := by
  have h3 := mem_tailS_rest main_cst (Pipeline.mem_restRefs_of main_cst rfl (by decide))
  have h4 := mem_tailS_rest main_v2 (Pipeline.mem_restRefs_of main_v2 rfl (by decide))
  have h5 := mem_tailS_rest main_cst_0 (Pipeline.mem_restRefs_of main_cst_0 rfl (by decide))
  have h6 := mem_tailS_rest main_v3 (Pipeline.mem_restRefs_of main_v3 rfl (by decide))
  intro ops hops op hop
  rw [List.mem_singleton] at hops; subst hops
  simp only [List.mem_cons, List.mem_nil_iff, or_false] at hop
  rcases hop with rfl | rfl | rfl | rfl
  · rw [StableHlo.nullary_bufs]; exact Finset.singleton_subset_iff.mpr h3
  · rw [StableHlo.binary_bufs]; simp only [Finset.insert_subset_iff, Finset.singleton_subset_iff]; exact ⟨mem_tailS_v1, h3, h4⟩
  · rw [StableHlo.nullary_bufs]; exact Finset.singleton_subset_iff.mpr h5
  · rw [StableHlo.binary_bufs]; simp only [Finset.insert_subset_iff, Finset.singleton_subset_iff]; exact ⟨h4, h5, h6⟩

/-- None allocates. -/
theorem tail_fresh : ∀ ops ∈ ([hostOps1] : List (List (HloOp τ sig (Elt F)))), ∀ op ∈ ops, op.fresh = ∅ := by
  intro ops hops op hop
  rw [List.mem_singleton] at hops; subst hops
  simp only [List.mem_cons, List.mem_nil_iff, or_false] at hop
  rcases hop with rfl | rfl | rfl | rfl <;> rfl

/-- THE RUN. For any proof data of the region whose arrays are the entry contents, whose two input windows hold the two
    halves of the shared array's share, which owes nothing, with its body obligation, and whose invariant starts from
    and returns to the scoped buffers no window stages: every weakly fair execution of @main terminates, the last scalar
    holds the lines' value of the result column after every write-back, and the argument matrix is unchanged. -/
theorem run_main (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (howed : ∀ c t, (dats 0 c).owed t = 0)
    (hbody : ∀ c, Pipeline.BodyObligationLoose (dats 0 c) (defs₀ (F := F)) Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) ⟨m, fun _ => 0, ρ⟩ (fun r => ∀ c : Dev nD,
      r.2.mem ((c.tc : Thread nD τ).loc main_v3) = tailVal ((dats 0 c).arrAt 2 cfg0.N)
      ∧ r.2.mem ((c.tc : Thread nD τ).loc main_arg0) = m ((c.tc : Thread nD τ).loc main_arg0)) := by
  classical
  unfold defs
  refine Pipeline.θ_run_region_noSem_pf_tail (fun p => (cfgs p).toPCfg) (fun p => (cfgs p).toPCfg_adm) dats () cellOf_inj (0 : Fin 1)
    winFacts₀0 (Pipeline.PreFacts.none _) emb₁ defs₀ Variants.none m ρ main (fun _ => Pipeline.chain [StableHlo.seq hostOps1])
    hbody block_pos0 arr_whole0 stage_whole0 howed
    (initOf (Pipeline.cells cfgs cellOf_inj) (Pipeline.launchToks cfgs cellOf_inj)) Entails.rfl
    (V m) ?hmain ?hsplit (fun _ k => k.elim0)
    (fun _ => iprop(emp)) (fun _ => iprop(emp))
    (fun c => Pipeline.unscopedRest spec0 c (V m c))
    (fun c => Pipeline.unscopedRest spec0 c (fun b => Wend m c ((dats 0 c).arrAt 2 cfg0.N) (Proc.devRef .tc b)))
    ?hX ?hin ?hout ?htail
    (fun c s => ∀ b ∈ Pipeline.restRefs sig spec0, s.mem ((c.tc : Thread nD τ).loc b) = Wend m c ((dats 0 c).arrAt 2 cfg0.N) (Proc.devRef .tc b))
    ?hY ?hQ
  case hmain =>
    exact Pipeline.hmain_around cfgs 0 defs₀ Variants.none m main [hostOps0] [hostOps1]
      (by simp only [List.Forall]; exact hostOps0_sub) (by simp only [List.Forall]; repeat' constructor) main_chain
  case hsplit =>
    exact hsplit_of m dats hA hq0 hq1
  case hX =>
    intro c
    rw [Pipeline.unscopedRestP_none]
    iintro H; isplitr; · iempintro
    iexact H
  case hin =>
    intro c
    refine BIBase.Entails.trans ?_ (hin c)
    iintro ⟨-, -, HR⟩; iexact HR
  case hout =>
    intro c
    refine (hout c).trans ?_
    iintro H; isplitr; · iempintro
    iexact H
  case htail =>
    intro c Q'
    have hs2 : (dats 0 c).share 2 = fullShare := rfl
    have hW := held_tailS (F := F) c (Wexit m c ((dats 0 c).arrAt 2 cfg0.N))
    rw [show Wexit m c ((dats 0 c).arrAt 2 cfg0.N) (Proc.devRef .tc main_v1) = (dats 0 c).arrAt 2 cfg0.N from by
      unfold Wexit; rw [Function.update_self], rest_Wexit] at hW
    have hW' := held_tailS (F := F) c (Wend m c ((dats 0 c).arrAt 2 cfg0.N))
    rw [Wend_v1] at hW'
    unfold Pipeline.Dat.arrays
    rw [bigSep_W0]
    beta_reduce
    rw [(arr_whole0 2).set_eq_univ, hs2]
    show _ ⊢ wp _ _ Set.univ (Pipeline.chain ((([hostOps1] : List (List (HloOp τ sig (Elt F)))).map StableHlo.seq) ++ [])) Q'
    iintro ⟨Hk, Hb, ⟨Ha0, Ha1, Ha2⟩, HZ⟩
    iapply (Pipeline.wp_seqs_then (fun p => (cfgs p).toPCfg) defs₀ Variants.none c tailS [] [hostOps1] tail_sub tail_fresh
      (Wexit m c ((dats 0 c).arrAt 2 cfg0.N))) $$ [Hb Ha2 HZ]
    · rw [hW]
      isplitl [Hb]; · iexact Hb
      isplitl [Ha2]; · iexact Ha2
      iexact HZ
    iintro H
    rw [Pipeline.chain_nil, wp_pure]
    imodintro
    iapply Hk
    ihave H' := (Entails.of_eq hW') $$ [H]
    · icases H with ⟨-, H⟩; iexact H
    icases H' with ⟨H1, HZ'⟩
    isplitr [HZ']
    · isplitl [Ha0]; · iexact Ha0
      isplitl [Ha1]; · iexact Ha1
      iexact H1
    · iexact HZ'
  case hY =>
    intro c s'
    iintro ⟨-, HU, HSI⟩
    unfold Pipeline.unscopedRest
    imodintro
    iapply (pointsTo_read_all (Pipeline.restRefs sig spec0) (fun b => (c.tc : Thread nD τ).loc b)
      (fun b => Wend m c ((dats 0 c).arrAt 2 cfg0.N) (Proc.devRef .tc b)) s')
    isplitl [HU] <;> iassumption
  case hQ =>
    intro s h c
    obtain ⟨-, -, hr⟩ := h c
    refine ⟨?_, ?_⟩
    · rw [hr main_v3 (Pipeline.mem_restRefs_of main_v3 rfl (by decide))]
      exact Wend_v3 m c _
    · rw [hr main_arg0 (Pipeline.mem_restRefs_of main_arg0 rfl (by decide))]
      exact Wend_arg0 m c _

end Cert.Kernel.Hand

end
-- ==== Proof.KIBase.lean ====
/-
  What every part of the kernel program's frame is stated over.

  The program converts the matrix to the narrow format (one host line), runs the kernel on a grid of 128 row blocks by
  8 column blocks, and then sums the kernel's column of 16384 numbers and divides by 100 (four host lines). The
  kernel reads the converted matrix through TWO windows: window 0 is the block of 128 rows the point's first coordinate
  selects, window 1 the block of 2048 rows its second coordinate selects. Window 2 is the result column's block of
  128 entries, written back when the second coordinate reaches 7. Between points the kernel keeps a column of 128
  running sums in a scratch buffer: it is reset when the second coordinate is 0, added to at every point, and its
  logarithm stored into window 2's buffer when the second coordinate is 7.

  Here: the buffer contents when the kernel region is entered (`V`), the windows' blocks read off them (`iblk`), the
  two conditions of the body in closed form over the 1024 points (second coordinate 0: the points ≡ 0 mod 8; second
  coordinate 7: the points ≡ 7 mod 8), where window 2 is idle and where it is written back, and names for the staging
  and scratch memrefs the body is called with.
-/
import proofs.«136624_j59433757442322_1_alg».proof.Proof.Gen.KernelIdeal.Launch
import proofs.«136624_j59433757442322_1_alg».proof.Proof.Gen.KernelIdeal.Skeleton
import proofs.«136624_j59433757442322_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- The TensorCore buffers' contents when the region is entered: the launch contents after the one host line before
    it (the conversion of the argument matrix to the narrow format). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The argument matrix is not written by the line before the region. -/
theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index
    has not moved), for any proof data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition of the body (the point's second coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second condition of the body (the point's second coordinate is 7). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the second condition fails the body stores nothing into window 2: the window is idle there, -/
theorem idleAt0_2 : ∀ t : Fin cfg0.N, ¬cond0_1 (grid0.coords t) → cfg0.idle 2 (grid0.coords t) = true := by decide +kernel
/-- and its block is not written back. -/
theorem noFlush0_2 : ∀ t : Fin cfg0.N, ¬cond0_1 (grid0.coords t) → (cfg0.win 2).flush t = false := by decide +kernel
/-- Where it holds the window is live. -/
theorem liveAt0_2 : ∀ t : Fin cfg0.N, cond0_1 (grid0.coords t) → cfg0.idle 2 (grid0.coords t) = false := by decide +kernel

/-! ## The memrefs the body is called with -/

/-- One staging buffer of window 2, through which its contents are stated. -/
abbrev VO0_2 : View sig .tc .vmem S128x1 .f32 := (Memref.whole cc0_stg2_0 : Memref sig .tc .vmem S128x1 .f32).view
/-- Each window's current staging memref at point `t`, and its wholeness. -/
abbrev ms0_0 (t : Fin cfg0.N) : Memref sig .tc .vmem S128x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
/-- The scratch column of running sums, a whole scoped buffer of the kernel's own, -/
abbrev scM0_0 : Memref sig .tc .vmem S128x1 .f32 := Memref.whole cc0_scratch0
/-- and as a view: what it holds is stated through it. -/
abbrev VS0_0 : View sig .tc .vmem S128x1 .f32 := scM0_0.view

/-- The scoped buffers no window stages are the scratch column alone, owned whole at some contents. -/
theorem scoped0_eq (c : Dev nD) :
    (Pipeline.scopedRest spec0 c : sProp 𝕄) = iprop(∃ d, owns (c : Thread nD τ) scM0_0 fullShare d) := by
  rw [scopedRest0_eq]; simp only [scM0_0, owns_whole]; try rfl

end Cert.KernelIdeal.Hand

end
-- ==== Proof.KIRunA.lean ====
/-
  The kernel body run once at a point whose second coordinate is 0 (first condition taken, second not): the scratch
  column is reset to zero, the two input blocks and the column just reset are loaded, the block's row sums of
  exponentials are added and stored back; nothing is stored into window 2's buffer, which is handed back as found.
  The pieces the stores leave in the scratch column are found by the symbolic run and are its witness.
-/
import proofs.«136624_j59433757442322_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a resetting point, on whole memrefs: the inputs' buffers at their contents, window 2's at contents
    handed back untouched, the scratch at anything; it ends with the scratch holding the pieces the run finds. -/
noncomputable def kernelRun0_A (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : cond0_0 i) (hc1 : ¬cond0_1 i)
    (x0 : Vec F S128x256 .bf16) (x1 : Vec F S2048x256 .bf16) :
    Σ' (L2 : List (View.Piece (Elt F) S128x1 .f32)), { LS0 : List (View.Piece (Elt F) S128x1 .f32) //
      ∀ (xi2 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨[], ?_, fun xi2 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KIRunB.lean ====
/-
  The kernel body run once at a point whose second coordinate is 1 to 6 (neither condition taken): the two input
  blocks and the scratch column are loaded, the block's row sums of exponentials are added to the column and stored
  back; nothing is stored into window 2's buffer, which is handed back as found.
-/
import proofs.«136624_j59433757442322_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at an accumulating point, on whole memrefs: the inputs' buffers at their contents, window 2's at contents
    handed back untouched, the scratch at what the point before left; it ends with the scratch holding the pieces the
    run finds. -/
noncomputable def kernelRun0_B (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : ¬cond0_1 i)
    (x0 : Vec F S128x256 .bf16) (x1 : Vec F S2048x256 .bf16) (xs0 : Vec F S128x1 .f32) :
    Σ' (L2 : List (View.Piece (Elt F) S128x1 .f32)), { LS0 : List (View.Piece (Elt F) S128x1 .f32) //
      ∀ (xi2 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨[], ?_, fun xi2 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KIRunC.lean ====
/-
  The kernel body run once at a point whose second coordinate is 7 (second condition taken, first not): the two
  input blocks and the scratch column are loaded, the block's row sums of exponentials are added to the column and
  stored back; then the column is loaded again and its logarithm stored into window 2's buffer, covering it.
-/
import proofs.«136624_j59433757442322_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a closing point, on whole memrefs: the inputs' buffers at their contents, window 2's at anything, the
    scratch at what the point before left; it ends with the scratch and window 2's buffer holding the pieces the run
    finds. -/
noncomputable def kernelRun0_C (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) :
    Σ' (L2 : List (View.Piece (Elt F) S128x1 .f32)), { LS0 : List (View.Piece (Elt F) S128x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨?_, ?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KIData.lean ====
/-
  The region's proof data and its body obligation.

  Per point the body is in one of three cases, by the point's second coordinate: 0 (the running sums are reset, then
  added to), 1 to 6 (added to), 7 (added to, then their logarithm stored into window 2's buffer). What the scratch
  column holds after each point is defined by recursion on the point (`outsAt0`, second component): the case's stores
  read back, over what the point before left. Window 2's buffer is written only at the points of the third case
  (`outsAt0`, first component); elsewhere the window is idle and its buffer is handed back as found. The invariant
  between points is the scratch column at exactly those contents (before the first point: at anything). The two input
  windows hold the two halves of the shared array's share.
-/
import proofs.«136624_j59433757442322_1_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Contents nothing consults: window 2's `after` at a point where the window is idle. -/
def dummy2 : Vec F S128x1 .f32 := VO0_2.read (Elt F) VO0_2.junk

/-- The first case's stores cover the scratch column. -/
theorem scover0_A_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : cond0_0 i) (hc1 : ¬cond0_1 i)
    (x0 : Vec F S128x256 .bf16) (x1 : Vec F S2048x256 .bf16) (y : S128x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x1.size (by sl_kernel_rfl) y

/-- What the first case leaves in the scratch column: its stores read back. -/
def sout0_A_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : cond0_0 i) (hc1 : ¬cond0_1 i)
    (x0 : Vec F S128x256 .bf16) (x1 : Vec F S2048x256 .bf16) : Vec F S128x1 .f32 :=
  VS0_0.read (Elt F) (VS0_0.writes (Elt F) VS0_0.junk (kernelRun0_A c i arg2 harg2 arg3 harg3 arg4 harg4 arg5 harg5 hc0 hc1 x0 x1).2.1)

/-- The second case's store covers the scratch column. -/
theorem scover0_B_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : ¬cond0_1 i)
    (x0 : Vec F S128x256 .bf16) (x1 : Vec F S2048x256 .bf16) (xs0 : Vec F S128x1 .f32) (y : S128x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x1.size (by sl_kernel_rfl) y

/-- What the second case leaves in the scratch column. -/
def sout0_B_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : ¬cond0_1 i)
    (x0 : Vec F S128x256 .bf16) (x1 : Vec F S2048x256 .bf16) (xs0 : Vec F S128x1 .f32) : Vec F S128x1 .f32 :=
  VS0_0.read (Elt F) (VS0_0.writes (Elt F) VS0_0.junk (kernelRun0_B c i arg2 harg2 arg3 harg3 arg4 harg4 arg5 harg5 hc0 hc1 x0 x1 xs0).2.1)

/-- The third case's store into window 2's buffer covers it. -/
theorem cover0_C_2 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) (y : S128x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S128x1.size (by sl_kernel_rfl) y

/-- What the third case leaves in window 2's buffer. -/
def out0_C_2 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) : Vec F S128x1 .f32 :=
  VO0_2.read (Elt F) (VO0_2.writes (Elt F) VO0_2.junk (kernelRun0_C c i arg2 harg2 arg3 harg3 arg4 harg4 arg5 harg5 hc0 hc1 x0 x1 xs0).1)

/-- The third case's store covers the scratch column. -/
theorem scover0_C_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) (y : S128x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x1.size (by sl_kernel_rfl) y

/-- What the third case leaves in the scratch column. -/
def sout0_C_0 (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) : Vec F S128x1 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- The closed forms of the two conditions exclude each other's residues. -/
theorem not_c1_of_mod0 (t : Fin cfg0.N) (h0 : t.val % 8 = 0) : ¬cond0_1 (grid0.coords t) :=
  fun h => by have h7 := (hcond0_1 t).mp h; omega
theorem not_c0_of_ne (t : Fin cfg0.N) (h0 : ¬t.val % 8 = 0) : ¬cond0_0 (grid0.coords t) :=
  fun h => h0 ((hcond0_0 t).mp h)
theorem not_c1_of_ne (t : Fin cfg0.N) (h1 : ¬t.val % 8 = 7) : ¬cond0_1 (grid0.coords t) :=
  fun h => h1 ((hcond0_1 t).mp h)

/-- THE ACCUMULATION. After the body at position `n`: what window 2's buffer holds (first component; a placeholder where
    the window is idle) and what the scratch column holds (second component) — the case the position's residue mod 8
    selects, run on the point's memrefs and input blocks, over the scratch contents the position before left. -/
def outsAt0 (c : Dev nD) : (n : ℕ) → n < cfg0.N → Vec F S128x1 .f32 × Vec F S128x1 .f32
  | 0, hn => (dummy2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (not_c1_of_mod0 ⟨0, hn⟩ (Nat.zero_mod _)) (iblk m c 0 ⟨0, hn⟩) (iblk m c 1 ⟨0, hn⟩))
  | n + 1, hn =>
    if h0 : (n + 1) % 8 = 0 then
      (dummy2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (not_c1_of_mod0 ⟨n + 1, hn⟩ h0) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_c0_of_ne ⟨n + 1, hn⟩ h0) ((hcond0_1 ⟨n + 1, hn⟩).mpr h1) (iblk m c 0 ⟨n + 1, hn⟩) (iblk m c 1 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_c0_of_ne ⟨n + 1, hn⟩ h0) ((hcond0_1 ⟨n + 1, hn⟩).mpr h1) (iblk m c 0 ⟨n + 1, hn⟩) (iblk m c 1 ⟨n + 1, hn⟩) (outsAt0 c n (Nat.lt_of_succ_lt hn)).2)
      else
        (dummy2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_c0_of_ne ⟨n + 1, hn⟩ h0) (not_c1_of_ne ⟨n + 1, hn⟩ h1) (iblk m c 0 ⟨n + 1, hn⟩) (iblk m c 1 ⟨n + 1, hn⟩) (outsAt0 c n (Nat.lt_of_succ_lt hn)).2)

/-- `outsAt0` at a resetting point. -/
theorem outsAt0_A (c : Dev nD) (t : Fin cfg0.N) (h0 : t.val % 8 = 0) :
    outsAt0 m c t.val t.isLt = (dummy2, sout0_A_0 c (grid0.coords t) (ms0_0 t) (hs0_0 t) (ms0_1 t) (hs0_1 t) (ms0_2 t) (hs0_2 t) scM0_0 (Memref.isWhole_whole _) ((hcond0_0 t).mpr h0) (not_c1_of_mod0 t h0) (iblk m c 0 t) (iblk m c 1 t)) := by
  obtain ⟨n, hn⟩ := t
  cases n with
  | zero => exact rfl
  | succ n => exact (dif_pos h0).trans rfl

/-- `outsAt0` at an accumulating point: over what the point before left. -/
theorem outsAt0_B (c : Dev nD) (t : Fin cfg0.N) (h0 : ¬t.val % 8 = 0) (h1 : ¬t.val % 8 = 7) :
    outsAt0 m c t.val t.isLt = (dummy2, sout0_B_0 c (grid0.coords t) (ms0_0 t) (hs0_0 t) (ms0_1 t) (hs0_1 t) (ms0_2 t) (hs0_2 t) scM0_0 (Memref.isWhole_whole _) (not_c0_of_ne t h0) (not_c1_of_ne t h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a closing point: over what the point before left. -/
theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (not_c0_of_ne t h0) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (not_c0_of_ne t h0) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the scratch column at anything; afterwards at what the
    point before left in it. -/
def PhiS (c : Dev nD) : (n : ℕ) → n ≤ cfg0.N → sProp 𝕄
  | 0, _ => Pipeline.scopedRest spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The region's proof data on core `c`: the arrays as the region finds them; after the body each input's buffer at its
    block, window 2's at `outsAt0`'s first component; the invariant `PhiS`; the shared array's share dealt in halves to
    the two input windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem q0_eq (c : Dev nD) : (dats m 0 c).q 0 = fullShare.left := rfl
theorem q1_eq (c : Dev nD) : (dats m 0 c).q 1 = fullShare.right := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves0_2_live (c : Dev nD) (t : Fin cfg0.N) (h : cond0_1 (grid0.coords t)) :
    (dats m 0 c).leavesExact 2 t = owns (c : Thread nD τ) (ms0_2 t) fullShare ((dats m 0 c).after 2 t) := by
  unfold Dat.leavesExact; rw [liveAt0_2 t h]

set_option maxHeartbeats 4800000 in
/-- The body at any point: the inputs' buffers hold their blocks; the point's residue mod 8 says which case it is in;
    the invariant hands the body the scratch column at what the point before left (at anything at the first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, after0_0, after0_1]
  have hN : t.val < 1024 := lt_of_lt_of_eq t.isLt (show cfg0.N = 1024 from N_0)
  by_cases h0 : t.val % 8 = 0
  · have hc1 : ¬cond0_1 (grid0.coords t) := not_c1_of_mod0 t h0
    rw [Dat.leavesExact_idle (dats m 0 c) 2 t (idleAt0_2 t hc1) (noFlush0_2 t hc1)]
    rw [outsAt0_A m c t h0]
    unfold sout0_A_0; (try dsimp only)
    by_cases hz : t.val = 0
    · rw [PhiS_castSucc m c t, PhiS_zero m c _ _ hz, scoped0_eq]
      iintro ⟨HS0, Ho, ⟨%d0, H0⟩, ⟨%d1, H1⟩, ⟨%d2, H2⟩⟩
      iapply ((kernelRun0_A c (grid0.coords t) _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 8 = 7
    · have hc1 : cond0_1 (grid0.coords t) := (hcond0_1 t).mpr h1
      rw [leaves0_2_live m c t hc1, after0_2]
      rw [outsAt0_C m c t h0 h1]
      unfold out0_C_2 sout0_C_0; (try dsimp only)
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (not_c0_of_ne t h0) hc1 (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hc1 : ¬cond0_1 (grid0.coords t) := not_c1_of_ne t h1
      rw [Dat.leavesExact_idle (dats m 0 c) 2 t (idleAt0_2 t hc1) (noFlush0_2 t hc1)]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (not_c0_of_ne t h0) hc1 (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch column back, its contents forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 1024 := N_0; omega), scoped0_eq]
  iintro HS0
  iexists _; iexact HS0

end Cert.KernelIdeal.Hand

end
-- ==== Proof.KITail.lean ====
/-
  What the four lines after the kernel region compute from the result column: its sum, from zero, divided by 100.
-/
import proofs.«136624_j59433757442322_1_alg».proof.Proof.Gen.KernelIdeal

noncomputable section

namespace Cert.KernelIdeal.Hand

open Cert.KernelIdeal Cert.KernelIdeal.Gen
open Idealize.ShloMosaic

variable {F : FTy → Type} [FloatOps F]

/-- The lines' value of the result column. -/
def tailVal (y : (⟨S16384x1, .f32⟩ : BufTy).Contents (Elt F)) : (⟨S_, .f32⟩ : BufTy).Contents (Elt F) :=
  Host.divf (Host.reduceAdd y (constant S_ .f32 0x00000000#32) reducesTo_S16384x1_S_d0_1 h_S_) (constant S_ .f32 0x42C80000#32)

end Cert.KernelIdeal.Hand

end
-- ==== Proof.KILaunch.lean ====
/-
  The launch of the kernel program: from proof data for the one kernel region, its body obligation and the invariant's
  two ends, to the run of @main — the conversion line, the region, the four lines after it.

  The kernel is handed the converted matrix through two windows, so the array's one buffer is dealt between them: window 0
  holds its left half share, window 1 its right half share (both only read it), and the result column is window 2's
  outright. After the region the two halves are still there and nothing reads them again; the four lines after the region
  read the result column and write four scalars no window names, so they run holding the result column and the buffers
  that bypassed the region. The run ends with the last scalar at the lines' value of the result column the kernel
  wrote, and the argument matrix as it was.
-/
import proofs.«136624_j59433757442322_1_alg».proof.Proof.KIBase
import proofs.«136624_j59433757442322_1_alg».proof.Proof.KITail
import Idealize.ShloMosaic.Lib.Pipeline.Launch
import Idealize.ShloMosaic.Lib.Pipeline.Kit
import Idealize.ShloMosaic.Lib.Pipeline.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers' contents when the region has ended: as at its entry, but the result column at `y`. -/
def Wexit (c : Dev nD) (y : (⟨S16384x1, .f32⟩ : BufTy).Contents (Elt F)) : Valuation τ sig (Elt F) :=
  Function.update (V0 m c) (Proc.devRef .tc main_v1) y

/-- and after the four lines that follow it. -/
def Wend (c : Dev nD) (y : (⟨S16384x1, .f32⟩ : BufTy).Contents (Elt F)) : Valuation τ sig (Elt F) :=
  StableHlo.after hostOps1 (Wexit m c y)

/-- The last scalar after the lines: the lines' value of the result column. -/
theorem Wend_v3 (c : Dev nD) (y : (⟨S16384x1, .f32⟩ : BufTy).Contents (Elt F)) :
    Wend m c y (Proc.devRef .tc main_v3) = tailVal y := by
  unfold Wend tailVal
  after_results
  unfold Wexit
  rw [Function.update_self]

/-- No line after the region writes the argument matrix, and the line before it does not either. -/
theorem Wend_arg0 (c : Dev nD) (y : (⟨S16384x1, .f32⟩ : BufTy).Contents (Elt F)) :
    Wend m c y (Proc.devRef .tc main_arg0) = m ((c.tc : Thread nD τ).loc main_arg0) := by
  unfold Wend
  after_results
  unfold Wexit
  rw [Function.update_of_ne (StableHlo.devRef_ne_of_ne (by decide))]
  rfl

/-- The two buffers behind the three windows' arrays, each whole at the full share at the entry contents, make the proof
    data's arrays at entry: the converted matrix's full share is dealt into its two halves, one per input window, and
    the result column goes to the output window whole. -/
theorem hsplit_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right) (c : Dev nD) :
    (Pipeline.arrBufs spec0 c (V m c) : sProp 𝕄) ⊢ (dats 0 c).arrays ((dats 0 c).arrAt · 0) := by
  have hs0 : (dats 0 c).share 0 = fullShare.left := hq0 c
  have hs1 : (dats 0 c).share 1 = fullShare.right := hq1 c
  have hs2 : (dats 0 c).share 2 = fullShare := rfl
  have ha0 : (dats 0 c).arrAt 0 0 = V m c main_v0 := hA c 0
  have ha1 : (dats 0 c).arrAt 1 0 = V m c main_v0 := hA c 1
  have ha2 : (dats 0 c).arrAt 2 0 = V m c main_v1 := hA c 2
  unfold Pipeline.arrBufs Pipeline.Dat.arrays
  rw [bigSep_eq_bigSepL_of_eq [main_v0, main_v1] (by decide) (by decide), bigSep_W0]
  beta_reduce
  rw [(arr_whole0 0).set_eq_univ, (arr_whole0 2).set_eq_univ, hs0, hs1, hs2, ha0, ha1, ha2]
  show iprop((((c.tc : Thread nD τ).loc main_v0) ↦{fullShare} V m c main_v0) ∗ (((c.tc : Thread nD τ).loc main_v1) ↦{fullShare} V m c main_v1)) ⊢ _
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- The buffers the lines after the region run within: the result column and the buffers that bypass the region. -/
def tailS : Finset (DevRef τ sig) :=
  (insert main_v1 (Pipeline.restRefs sig spec0)).map ⟨Proc.devRef (sig := sig) (.tc : Proc τ), Proc.devRef_injective _⟩

/-- The result column is a window's array, so it is none of the buffers that bypass the region. -/
theorem main_v1_not_rest : main_v1 ∉ Pipeline.restRefs sig spec0 :=
  fun h => (Finset.mem_sdiff.mp h).2 (Finset.mem_image.mpr ⟨2, Finset.mem_univ _, rfl⟩)

theorem mem_tailS_rest (r : Ref sig .tc) (h : r ∈ Pipeline.restRefs sig spec0) : Proc.devRef (τ := τ) .tc r ∈ tailS :=
  Finset.mem_map_of_mem _ (Finset.mem_insert_of_mem h)

theorem mem_tailS_v1 : Proc.devRef (τ := τ) .tc main_v1 ∈ tailS :=
  Finset.mem_map_of_mem _ (Finset.mem_insert_self _ _)

/-- Those buffers held at a valuation: the result column, and the bypassing buffers. -/
theorem held_tailS (c : Dev nD) (W : Valuation τ sig (Elt F)) :
    (StableHlo.held (c.tc : Thread nD τ) tailS W : sProp 𝕄)
      = iprop((((c.tc : Thread nD τ).loc main_v1) ↦{fullShare} W (Proc.devRef .tc main_v1))
          ∗ Pipeline.unscopedRest spec0 c (fun b => W (Proc.devRef .tc b))) := by
  unfold StableHlo.held tailS Pipeline.unscopedRest
  rw [bigSep_map, bigSep_insert main_v1_not_rest]
  rfl

/-- At the region's exit the bypassing buffers are as at its entry. -/
theorem rest_Wexit (c : Dev nD) (y : (⟨S16384x1, .f32⟩ : BufTy).Contents (Elt F)) :
    (Pipeline.unscopedRest spec0 c (fun b => Wexit m c y (Proc.devRef .tc b)) : sProp 𝕄) = Pipeline.unscopedRest spec0 c (V m c) := by
  unfold Pipeline.unscopedRest
  exact bigSep_congr fun b hb => by
    unfold Wexit
    beta_reduce
    rw [Function.update_of_ne (StableHlo.devRef_ne_of_ne fun e : b = main_v1 => main_v1_not_rest (e ▸ hb))]

/-- No line after the region writes the result column. -/
theorem Wend_v1 (c : Dev nD) (y : (⟨S16384x1, .f32⟩ : BufTy).Contents (Elt F)) :
    Wend m c y (Proc.devRef .tc main_v1) = y := by
  unfold Wend
  after_results
  unfold Wexit
  rw [Function.update_self]

/-- Each line after the region touches only the result column and bypassing buffers. -/
theorem tail_sub : ∀ ops ∈ ([hostOps1] : List (List (HloOp τ sig (Elt F)))), ∀ op ∈ ops, op.bufs ⊆ tailS := by
  have h3 := mem_tailS_rest main_cst (Pipeline.mem_restRefs_of main_cst rfl (by decide))
  have h4 := mem_tailS_rest main_v2 (Pipeline.mem_restRefs_of main_v2 rfl (by decide))
  have h5 := mem_tailS_rest main_cst_0 (Pipeline.mem_restRefs_of main_cst_0 rfl (by decide))
  have h6 := mem_tailS_rest main_v3 (Pipeline.mem_restRefs_of main_v3 rfl (by decide))
  intro ops hops op hop
  rw [List.mem_singleton] at hops; subst hops
  simp only [List.mem_cons, List.mem_nil_iff, or_false] at hop
  rcases hop with rfl | rfl | rfl | rfl
  · rw [StableHlo.nullary_bufs]; exact Finset.singleton_subset_iff.mpr h3
  · rw [StableHlo.binary_bufs]; simp only [Finset.insert_subset_iff, Finset.singleton_subset_iff]; exact ⟨mem_tailS_v1, h3, h4⟩
  · rw [StableHlo.nullary_bufs]; exact Finset.singleton_subset_iff.mpr h5
  · rw [StableHlo.binary_bufs]; simp only [Finset.insert_subset_iff, Finset.singleton_subset_iff]; exact ⟨h4, h5, h6⟩

/-- None allocates. -/
theorem tail_fresh : ∀ ops ∈ ([hostOps1] : List (List (HloOp τ sig (Elt F)))), ∀ op ∈ ops, op.fresh = ∅ := by
  intro ops hops op hop
  rw [List.mem_singleton] at hops; subst hops
  simp only [List.mem_cons, List.mem_nil_iff, or_false] at hop
  rcases hop with rfl | rfl | rfl | rfl <;> rfl

/-- THE RUN. For any proof data of the region whose arrays are the entry contents, whose two input windows hold the two
    halves of the shared array's share, which owes nothing, with its body obligation, and whose invariant starts from
    and returns to the scoped buffers no window stages: every weakly fair execution of @main terminates, the last scalar
    holds the lines' value of the result column after every write-back, and the argument matrix is unchanged. -/
theorem run_main (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (howed : ∀ c t, (dats 0 c).owed t = 0)
    (hbody : ∀ c, Pipeline.BodyObligationLoose (dats 0 c) (defs₀ (F := F)) Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) ⟨m, fun _ => 0, ρ⟩ (fun r => ∀ c : Dev nD,
      r.2.mem ((c.tc : Thread nD τ).loc main_v3) = tailVal ((dats 0 c).arrAt 2 cfg0.N)
      ∧ r.2.mem ((c.tc : Thread nD τ).loc main_arg0) = m ((c.tc : Thread nD τ).loc main_arg0)) := by
  classical
  unfold defs
  refine Pipeline.θ_run_region_noSem_pf_tail (fun p => (cfgs p).toPCfg) (fun p => (cfgs p).toPCfg_adm) dats () cellOf_inj (0 : Fin 1)
    winFacts₀0 (Pipeline.PreFacts.none _) emb₁ defs₀ Variants.none m ρ main (fun _ => Pipeline.chain [StableHlo.seq hostOps1])
    hbody block_pos0 arr_whole0 stage_whole0 howed
    (initOf (Pipeline.cells cfgs cellOf_inj) (Pipeline.launchToks cfgs cellOf_inj)) Entails.rfl
    (V m) ?hmain ?hsplit (fun _ k => k.elim0)
    (fun _ => iprop(emp)) (fun _ => iprop(emp))
    (fun c => Pipeline.unscopedRest spec0 c (V m c))
    (fun c => Pipeline.unscopedRest spec0 c (fun b => Wend m c ((dats 0 c).arrAt 2 cfg0.N) (Proc.devRef .tc b)))
    ?hX ?hin ?hout ?htail
    (fun c s => ∀ b ∈ Pipeline.restRefs sig spec0, s.mem ((c.tc : Thread nD τ).loc b) = Wend m c ((dats 0 c).arrAt 2 cfg0.N) (Proc.devRef .tc b))
    ?hY ?hQ
  case hmain =>
    exact Pipeline.hmain_around cfgs 0 defs₀ Variants.none m main [hostOps0] [hostOps1]
      (by simp only [List.Forall]; exact hostOps0_sub) (by simp only [List.Forall]; repeat' constructor) main_chain
  case hsplit =>
    exact hsplit_of m dats hA hq0 hq1
  case hX =>
    intro c
    rw [Pipeline.unscopedRestP_none]
    iintro H; isplitr; · iempintro
    iexact H
  case hin =>
    intro c
    refine BIBase.Entails.trans ?_ (hin c)
    iintro ⟨-, -, HR⟩; iexact HR
  case hout =>
    intro c
    refine (hout c).trans ?_
    iintro H; isplitr; · iempintro
    iexact H
  case htail =>
    intro c Q'
    have hs2 : (dats 0 c).share 2 = fullShare := rfl
    have hW := held_tailS (F := F) c (Wexit m c ((dats 0 c).arrAt 2 cfg0.N))
    rw [show Wexit m c ((dats 0 c).arrAt 2 cfg0.N) (Proc.devRef .tc main_v1) = (dats 0 c).arrAt 2 cfg0.N from by
      unfold Wexit; rw [Function.update_self], rest_Wexit] at hW
    have hW' := held_tailS (F := F) c (Wend m c ((dats 0 c).arrAt 2 cfg0.N))
    rw [Wend_v1] at hW'
    unfold Pipeline.Dat.arrays
    rw [bigSep_W0]
    beta_reduce
    rw [(arr_whole0 2).set_eq_univ, hs2]
    show _ ⊢ wp _ _ Set.univ (Pipeline.chain ((([hostOps1] : List (List (HloOp τ sig (Elt F)))).map StableHlo.seq) ++ [])) Q'
    iintro ⟨Hk, Hb, ⟨Ha0, Ha1, Ha2⟩, HZ⟩
    iapply (Pipeline.wp_seqs_then (fun p => (cfgs p).toPCfg) defs₀ Variants.none c tailS [] [hostOps1] tail_sub tail_fresh
      (Wexit m c ((dats 0 c).arrAt 2 cfg0.N))) $$ [Hb Ha2 HZ]
    · rw [hW]
      isplitl [Hb]; · iexact Hb
      isplitl [Ha2]; · iexact Ha2
      iexact HZ
    iintro H
    rw [Pipeline.chain_nil, wp_pure]
    imodintro
    iapply Hk
    ihave H' := (Entails.of_eq hW') $$ [H]
    · icases H with ⟨-, H⟩; iexact H
    icases H' with ⟨H1, HZ'⟩
    isplitr [HZ']
    · isplitl [Ha0]; · iexact Ha0
      isplitl [Ha1]; · iexact Ha1
      iexact H1
    · iexact HZ'
  case hY =>
    intro c s'
    iintro ⟨-, HU, HSI⟩
    unfold Pipeline.unscopedRest
    imodintro
    iapply (pointsTo_read_all (Pipeline.restRefs sig spec0) (fun b => (c.tc : Thread nD τ).loc b)
      (fun b => Wend m c ((dats 0 c).arrAt 2 cfg0.N) (Proc.devRef .tc b)) s')
    isplitl [HU] <;> iassumption
  case hQ =>
    intro s h c
    obtain ⟨-, -, hr⟩ := h c
    refine ⟨?_, ?_⟩
    · rw [hr main_v3 (Pipeline.mem_restRefs_of main_v3 rfl (by decide))]
      exact Wend_v3 m c _
    · rw [hr main_arg0 (Pipeline.mem_restRefs_of main_arg0 rfl (by decide))]
      exact Wend_arg0 m c _

end Cert.KernelIdeal.Hand

end
-- ==== Proof.KIPieces.lean ====
/-
  What each case of the body leaves, as the body's named arithmetic of what it loaded: the stores' pieces read back are
  the payloads themselves, each store covering its whole buffer. At a resetting point the running sums stored back are
  the update of the zero column; at the other points the update of what the point before left; at a closing point the
  result block is the logarithm of the updated column.
-/
import proofs.«136624_j59433757442322_1_alg».proof.Proof.KIData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- At a resetting point the scratch column ends at the update of the zero column by the point's two input blocks. -/
theorem sout0_A_0_eq (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : cond0_0 i) (hc1 : ¬cond0_1 i)
    (x0 : Vec F S128x256 .bf16) (x1 : Vec F S2048x256 .bf16) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S128x1) hz]
  simp only [View.readAt_eq_ld, harg2.read_unread, harg3.read_unread, View.ld_unit_zero (S := S128x256) hz, View.ld_unit_zero (S := S2048x256) hz,
    View.ld_unit_zero (S := S128x1) hz, View.readCov_unit_zero (S := S128x1) _ hz]

/-- At an accumulating point it ends at the update of what the point before left. -/
theorem sout0_B_0_eq (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : ¬cond0_1 i)
    (x0 : Vec F S128x256 .bf16) (x1 : Vec F S2048x256 .bf16) (xs0 : Vec F S128x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S128x256) hz, View.ld_unit_zero (S := S2048x256) hz,
    View.ld_unit_zero (S := S128x1) hz]

/-- At a closing point likewise, -/
theorem sout0_C_0_eq (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S128x256) hz, View.ld_unit_zero (S := S2048x256) hz,
    View.ld_unit_zero (S := S128x1) hz]

/-- and the result block is the logarithm of the updated column. -/
theorem out0_C_2_eq (c : Dev nD) (i : grid0.Coords) (arg2 : Memref sig .tc .vmem S128x256 .bf16) (harg2 : arg2.IsWhole) (arg3 : Memref sig .tc .vmem S2048x256 .bf16) (harg3 : arg3.IsWhole) (arg4 : Memref sig .tc .vmem S128x1 .f32) (harg4 : arg4.IsWhole) (arg5 : Memref sig .tc .vmem S128x1 .f32) (harg5 : arg5.IsWhole) (hc0 : ¬cond0_0 i) (hc1 : cond0_1 i)
    (x0 : Vec F S128x256 .bf16) (x1 : Vec F S2048x256 .bf16) (xs0 : Vec F S128x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S128x256) hz, View.ld_unit_zero (S := S2048x256) hz,
    View.ld_unit_zero (S := S128x1) hz, View.readCov_unit_zero (S := S128x1) _ hz]

end Cert.KernelIdeal.Hand

end
-- ==== Proof.Spec.lean ====
/-
  The quantity both programs compute, written once over the extended reals.

  For a matrix `x` of 16384 rows of 256 entries: the Gram entry of rows `r` and `j` is the inner product
  `∑ d, x r d · x j d`; row `r`'s mass is `∑ j, exp (2 · gram r j)` (the temperature 1/2 enters as the factor 2); its
  log-sum-exp is the logarithm of that mass; and the loss is the sum of the rows' log-sum-exps divided by 100.
-/
import Idealize.ShloMosaic.PureOps.Ideal
import Idealize.ShloMosaic.Lib.ValueIdx

noncomputable section

open scoped BigOperators

namespace Cert.Spec

open Idealize.ShloMosaic Idealize.ShloMosaic.ValueIdx

/-- The matrix's shape: 16384 rows, 256 columns. -/
abbrev SX : Shape := ⟨2, ![16384, 256]⟩

/-- Inner product of rows `r` and `j`. -/
def gram (x : SX.Idx → EReal) (r j : Fin 16384) : EReal := ∑ d : Fin 256, x (ix2 r d) * x (ix2 j d)

/-- Row `r`'s mass: the sum over all rows `j` of `exp (2 · ⟨x r, x j⟩)`. -/
def rowMass (x : SX.Idx → EReal) (r : Fin 16384) : EReal := ∑ j : Fin 16384, Ideal.exp (gram x r j * 2)

/-- Row `r`'s log-sum-exp. -/
def rowLse (x : SX.Idx → EReal) (r : Fin 16384) : EReal := Ideal.log (rowMass x r)

/-- The loss: the rows' log-sum-exps summed, over 100. -/
def loss (x : SX.Idx → EReal) : EReal := Ideal.div (∑ r : Fin 16384, rowLse x r) ((100 : ℝ) : EReal)

end Cert.Spec

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.KIPayload.lean ====
/-
  The kernel body's arithmetic read at one entry, over the extended reals.

  With `a` the block of 128 rows and `b` the block of 2048 rows the point selects, and `acc` the column of running sums:
  the value stored back into the column at row `p` is `acc p + ∑ q, exp (2 · ⟨a p, b q⟩)` — the matrix product against the
  transposed block is the inner products of rows, the lane sum from zero the plain sum —; the column the first case
  resets to is zero; and the value stored into the result block at row `p` is the logarithm of the column's entry.
-/
import proofs.«136624_j59433757442322_1_alg».proof.Proof.Gen.KernelIdeal.Skeleton
import proofs.«136624_j59433757442322_1_alg».proof.Proof.Spec
import proofs.«136624_j59433757442322_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The constant two -/

/-- The word `0x40000000` denotes two. -/
theorem ofBits_two : Ideal.ofBits .f32 0x40000000#32 = 2 := by
  have h : Ideal.ofBits .f32 0x40000000#32 = (((2 : ℕ) : ℝ) : EReal) := by
    simp [Ideal.ofBits, Ideal.ieee, -EReal.coe_mul]; norm_num
  rw [h, EReal.coe_natCast]
  rfl

/-! ## The matrix product against the transposed block -/

/-- The left operand's row coordinate is the result's row. -/
theorem lhs_0 (i : S128x2048.Idx) (q : dot_S128x256_S256x2048_S128x2048_1_0_0_1_n_n.contr.Idx) :
    (dot_S128x256_S256x2048_S128x2048_1_0_0_1_n_n.lhsIdx i q 0).val = (i 0).val := by
  unfold DotDims.lhsIdx
  rw [dif_neg (show ¬(0 : Fin S128x256.rank) ∈ dot_S128x256_S256x2048_S128x2048_1_0_0_1_n_n.lhsBatch by decide), dif_pos (show (0 : Fin S128x256.rank) ∈ dot_S128x256_S256x2048_S128x2048_1_0_0_1_n_n.lhsNonContracting by decide)]
  rfl
/-- The left operand's column coordinate is the contracted one. -/
theorem lhs_1 (i : S128x2048.Idx) (q : dot_S128x256_S256x2048_S128x2048_1_0_0_1_n_n.contr.Idx) :
    (dot_S128x256_S256x2048_S128x2048_1_0_0_1_n_n.lhsIdx i q 1).val = (q ⟨0, by decide⟩).val :=
  dot_S128x256_S256x2048_S128x2048_1_0_0_1_n_n.lhsIdx_val_of_single rfl i q
/-- The right operand's row coordinate is the contracted one. -/
theorem rhs_0 (i : S128x2048.Idx) (q : dot_S128x256_S256x2048_S128x2048_1_0_0_1_n_n.contr.Idx) :
    (dot_S128x256_S256x2048_S128x2048_1_0_0_1_n_n.rhsIdx i q 0).val = (q ⟨0, by decide⟩).val :=
  dot_S128x256_S256x2048_S128x2048_1_0_0_1_n_n.rhsIdx_val_of_single rfl i q
/-- The right operand's column coordinate is the result's column. -/
theorem rhs_1 (i : S128x2048.Idx) (q : dot_S128x256_S256x2048_S128x2048_1_0_0_1_n_n.contr.Idx) :
    (dot_S128x256_S256x2048_S128x2048_1_0_0_1_n_n.rhsIdx i q 1).val = (i 1).val := by
  unfold DotDims.rhsIdx
  rw [dif_neg (show ¬(1 : Fin S256x2048.rank) ∈ dot_S128x256_S256x2048_S128x2048_1_0_0_1_n_n.rhsBatch by decide), dif_pos (show (1 : Fin S256x2048.rank) ∈ dot_S128x256_S256x2048_S128x2048_1_0_0_1_n_n.rhsNonContracting by decide)]
  rfl

/-- The product into the zero accumulator at `(p, q)`: the sum over the contracted coordinate. -/
theorem matmul_zero_apply (a : FVec Ideal S128x256 .bf16) (bt : FVec Ideal S256x2048 .bf16) (p : Fin 128) (q : Fin 2048) :
    matmul dot_S128x256_S256x2048_S128x2048_1_0_0_1_n_n none a bt (constant (F := Ideal) S128x2048 .f32 0x00000000#32) (ix2 p q)
      = ∑ d : Fin 256, a (ix2 p d) * bt (ix2 d q) := by
  refine (Ideal.matmul_constant_zero_apply dot_S128x256_S256x2048_S128x2048_1_0_0_1_n_n none a bt (ix2 p q)).trans ?_
  rw [← Equiv.sum_comp (ValueIdx.contrEquiv1 dot_S128x256_S256x2048_S128x2048_1_0_0_1_n_n 256 rfl rfl).symm]
  refine Finset.sum_congr rfl fun k _ => ?_
  have hk := ValueIdx.contrEquiv1_symm_val dot_S128x256_S256x2048_S128x2048_1_0_0_1_n_n 256 rfl rfl k
  have el : dot_S128x256_S256x2048_S128x2048_1_0_0_1_n_n.lhsIdx (ix2 p q) ((ValueIdx.contrEquiv1 dot_S128x256_S256x2048_S128x2048_1_0_0_1_n_n 256 rfl rfl).symm k) = ix2 p k := funext fun a => Fin.ext (by
    match a with
    | ⟨0, _⟩ => exact lhs_0 _ _
    | ⟨1, _⟩ => exact (lhs_1 _ _).trans hk)
  have er : dot_S128x256_S256x2048_S128x2048_1_0_0_1_n_n.rhsIdx (ix2 p q) ((ValueIdx.contrEquiv1 dot_S128x256_S256x2048_S128x2048_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The transposed block at `(d, q)` is the block at `(q, d)`. -/
theorem transpose_block_apply (b : FVec Ideal S2048x256 .bf16) (h : S2048x256.Transposes [1, 0] S256x2048) (d : Fin 256) (q : Fin 2048) :
    transpose S256x2048 [1, 0] b h (ix2 d q) = b (ix2 q d) :=
  transpose_apply [1, 0] b h (ix2 d q) (ix2 q d) (fun c => match c with
    | ⟨0, _⟩ => rfl
    | ⟨1, _⟩ => rfl)

/-- So the product of the row block with the transposed block, at `(p, q)`, is the inner product of rows `p` and `q`. -/
theorem gram_block_apply (a : FVec Ideal S128x256 .bf16) (b : FVec Ideal S2048x256 .bf16) (h1 : S128x256.ShapeCasts S128x256)
    (h2 : S2048x256.ShapeCasts S2048x256) (ht : S2048x256.Transposes [1, 0] S256x2048) (p : Fin 128) (q : Fin 2048) :
    matmul dot_S128x256_S256x2048_S128x2048_1_0_0_1_n_n none (shapeCast S128x256 a h1) (transpose S256x2048 [1, 0] (shapeCast S2048x256 b h2) ht)
        (constant (F := Ideal) S128x2048 .f32 0x00000000#32) (ix2 p q)
      = ∑ d : Fin 256, a (ix2 p d) * b (ix2 q d) := by
  refine (matmul_zero_apply _ _ p q).trans (Finset.sum_congr rfl fun d _ => ?_)
  rw [transpose_block_apply, shapeCast_self, shapeCast_self]

/-! ## The lane sum -/

/-- The sum over the second axis from the zero word, at row `p`, is the plain sum over the row. -/
theorem lane_sum_apply (w : FVec Ideal S128x2048 .f32) (h : S128x2048.Reduces [1] S128) (hφ : FKind.Formats .f32)
    (hacc : (0x00000000#32 : BitVec 32) = FKind.add.neutral .f32 hφ) (p : Fin 128) :
    multiReduction (F := Ideal) .add [1] S128 w 0x00000000#32 h hφ hacc (ix1 p) = ∑ q : Fin 2048, w (ix2 p q) := by
  refine (Ideal.multiReduction_add_single w 0x00000000#32 h hφ hacc (ix1 p)).trans ?_
  refine Finset.sum_congr rfl fun k _ => congrArg w (funext fun c => Fin.ext (by
    match c with
    | ⟨0, _⟩ => rfl
    | ⟨1, _⟩ => rfl))

/-! ## The three payloads -/

/-- The column the first case resets the running sums to is zero. -/
theorem pay1_apply (j : S128x1.Idx) : k0_pay1 (F := Ideal) j = 0 := by
  unfold k0_pay1
  refine (congrFun (shapeCast_self _ _) j).trans ?_
  exact Ideal.ofBits_zero_f32

/-- The column stored back: at row `p`, the running sum plus the block's sum of exponentials of twice the inner products. -/
theorem pay2_apply (x0 : Vec Ideal S128x256 .bf16) (x1 : Vec Ideal S2048x256 .bf16) (acc : Vec Ideal S128x1 .f32) (p : Fin 128) :
    k0_pay2 (F := Ideal) x0 x1 acc (ix2 p (0 : Fin 1))
      = acc (ix2 p (0 : Fin 1)) + ∑ q : Fin 2048, Ideal.exp ((∑ d : Fin 256, x0 (ix2 p d) * x1 (ix2 q d)) * 2) := by
  unfold k0_pay2
  refine (congrFun (shapeCast_self _ _) (ix2 p (0 : Fin 1))).trans ?_
  refine congrArg (acc (ix2 p (0 : Fin 1)) + ·) ?_
  refine (Cert.LibColumn.shapeCast_a_a1_apply _ _ p 0).trans ?_
  refine (lane_sum_apply _ _ _ _ p).trans ?_
  refine Finset.sum_congr rfl fun q _ => ?_
  refine congrArg Ideal.exp ?_
  refine (mulf_apply _ _ _).trans ?_
  refine congrArg₂ (· * ·) (gram_block_apply x0 x1 _ _ _ p q) ?_
  exact ofBits_two

/-- The result block: at row `p`, the logarithm of the column's entry. -/
theorem pay3_apply (v : Vec Ideal S128x1 .f32) (p : Fin 128) :
    k0_pay3 (F := Ideal) v (ix2 p (0 : Fin 1)) = Ideal.log (v (ix2 p (0 : Fin 1))) := by
  unfold k0_pay3
  rfl

end Cert.KernelIdeal.Hand

end
-- ==== Proof.SpecBlocks.lean ====
/-
  The row mass cut into the eight column blocks the kernel visits.

  `xr x n d` is the matrix's entry in row `n` (a natural number; zero past the last row). The mass of column block `k`
  for row `p` of row block `i` is the sum over the block's 2048 rows `q` of `exp (2 · ⟨x (128 i + p), x (2048 k + q)⟩)`;
  a row's eight block masses add up to its mass, the 16384 rows being the eight blocks of 2048 laid end to end.
-/
import proofs.«136624_j59433757442322_1_alg».proof.Proof.Spec
import Mathlib.Algebra.BigOperators.Fin
import Mathlib.Logic.Equiv.Fin.Basic

noncomputable section

open scoped BigOperators

namespace Cert.Spec

open Idealize.ShloMosaic Idealize.ShloMosaic.ValueIdx

/-- The entry in row `n`, column `d`; zero for a row number past the matrix. -/
def xr (x : SX.Idx → EReal) (n : ℕ) (d : Fin 256) : EReal := if h : n < 16384 then x (ix2 ⟨n, h⟩ d) else 0

/-- Column block `k`'s mass for row `p` of row block `i`. -/
def blockMass (x : SX.Idx → EReal) (i k : ℕ) (p : Fin 128) : EReal :=
  ∑ q : Fin 2048, Ideal.exp ((∑ d : Fin 256, xr x (128 * i + p.val) d * xr x (2048 * k + q.val) d) * 2)

/-- A row number below 16384 names a row of the matrix. -/
theorem xr_of_lt (x : SX.Idx → EReal) (n : ℕ) (h : n < 16384) (d : Fin 256) :
    xr x n d = x (ix2 ⟨n, h⟩ d) := dif_pos h

/-- The row of a `Fin 16384` index is the matrix's row. -/
theorem xr_val (x : SX.Idx → EReal) (r : Fin 16384) (d : Fin 256) : xr x r.val d = x (ix2 r d) :=
  xr_of_lt x r.val r.isLt d

/-- The 16384 rows as eight blocks of 2048 laid end to end: `(k, q) ↦ 2048 k + q`. -/
def blockEquiv : Fin 8 × Fin 2048 ≃ Fin 16384 where
  toFun kq := ⟨2048 * kq.1.val + kq.2.val, by have := kq.1.isLt; have := kq.2.isLt; omega⟩
  invFun j := (⟨j.val / 2048, by have := j.isLt; omega⟩, ⟨j.val % 2048, Nat.mod_lt _ (by norm_num)⟩)
  left_inv := by
    rintro ⟨k, q⟩
    have hk := k.isLt
    have hq := q.isLt
    refine Prod.ext (Fin.ext ?_) (Fin.ext ?_)
    · show (2048 * k.val + q.val) / 2048 = k.val
      omega
    · show (2048 * k.val + q.val) % 2048 = q.val
      omega
  right_inv := by
    intro j
    refine Fin.ext ?_
    show 2048 * (j.val / 2048) + j.val % 2048 = j.val
    omega

theorem blockEquiv_val (k : Fin 8) (q : Fin 2048) : (blockEquiv (k, q)).val = 2048 * k.val + q.val := rfl

/-- A row's eight block masses add up to its mass. -/
theorem blocks_rowMass (x : SX.Idx → EReal) (r : Fin 16384) :
    ∑ k ∈ Finset.range 8, blockMass x (r.val / 128) k ⟨r.val % 128, Nat.mod_lt _ (by norm_num)⟩ = rowMass x r := by
  have hrow : 128 * (r.val / 128) + r.val % 128 = r.val := Nat.div_add_mod _ _
  calc ∑ k ∈ Finset.range 8, blockMass x (r.val / 128) k ⟨r.val % 128, Nat.mod_lt _ (by norm_num)⟩
      = ∑ k : Fin 8, ∑ q : Fin 2048, Ideal.exp (gram x r (blockEquiv (k, q)) * 2) := by
        rw [Finset.sum_range]
        refine Finset.sum_congr rfl (fun k _ => Finset.sum_congr rfl (fun q _ => ?_))
        have hinner : (∑ d : Fin 256, xr x (128 * (r.val / 128) + r.val % 128) d * xr x (2048 * k.val + q.val) d)
            = gram x r (blockEquiv (k, q)) := by
          unfold gram
          refine Finset.sum_congr rfl (fun d _ => ?_)
          rw [hrow, xr_val, ← blockEquiv_val k q, xr_val]
        exact congrArg (fun t => Ideal.exp (t * 2)) hinner
    _ = ∑ kq : Fin 8 × Fin 2048, Ideal.exp (gram x r (blockEquiv kq) * 2) :=
        (Fintype.sum_prod_type' (fun k q => Ideal.exp (gram x r (blockEquiv (k, q)) * 2))).symm
    _ = ∑ j : Fin 16384, Ideal.exp (gram x r j * 2) :=
        Equiv.sum_comp blockEquiv (fun j => Ideal.exp (gram x r j * 2))

end Cert.Spec

end
-- ==== Proof.KIAcc.lean ====
/-
  What the running sums hold after each point, over the extended reals.

  Point `t` of the grid is row block `t / 8`, column block `t % 8`. Window 0's block at `t` is rows `128 (t / 8) + p` of the
  converted matrix, window 1's rows `2048 (t % 8) + q`. By induction on the point: after point `t` the scratch column's entry
  `p` is the sum of the masses of column blocks `0 … t % 8` for row `p` of row block `t / 8` (the reset at `t % 8 = 0` starts the
  sum afresh); so at a closing point (`t % 8 = 7`) the result block's entry `p` is the logarithm of all eight.
-/
import proofs.«136624_j59433757442322_1_alg».proof.Proof.KIPieces
import proofs.«136624_j59433757442322_1_alg».proof.Proof.KIPayload
import proofs.«136624_j59433757442322_1_alg».proof.Proof.SpecBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The converted matrix as the region finds it. -/
abbrev xin (c : Dev nD) : Cert.Spec.SX.Idx → EReal := V (F := Ideal) m c main_v0

/-! ## The windows' block indices over the grid -/

/-- Window 0's block index at point `t` is `(t / 8, 0)`. -/
theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

/-- Window 1's block index at point `t` is `(t % 8, 0)`. -/
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- Window 0's block at `t`, entry `x`, is the matrix's entry `k` whose row is `128 (t / 8)` plus `x`'s and whose column is `x`'s. -/
theorem blk0_at (c : Dev nD) (t : Fin cfg0.N) (x : S128x256.Idx) (k : S16384x256.Idx)
    (hk0 : (k 0).val = 128 * (t.val / 8) + (x 0).val) (hk1 : (k 1).val = (x 1).val) :
    (iblk (F := Ideal) m c 0 t : Vec Ideal S128x256 .bf16) x = (V (F := Ideal) m c main_v0 : S16384x256.Idx → Elt Ideal .bf16) k := by
  obtain ⟨e0, e1⟩ := idx0 t
  unfold iblk
  rw [View.read_apply]
  show V m c main_v0 _ = V m c main_v0 _
  congr 1
  funext a
  apply Fin.ext
  match a with
  | ⟨0, _⟩ => show win0_0.index t 0 * 128 + 1 * (x 0).val = (k 0).val; rw [e0, hk0]; omega
  | ⟨1, _⟩ => show win0_0.index t 1 * 256 + 1 * (x 1).val = (k 1).val; rw [e1, hk1]; omega

/-- Window 1's block at `t`, entry `x`, is the matrix's entry `k` whose row is `2048 (t % 8)` plus `x`'s and whose column is `x`'s. -/
theorem blk1_at (c : Dev nD) (t : Fin cfg0.N) (x : S2048x256.Idx) (k : S16384x256.Idx)
    (hk0 : (k 0).val = 2048 * (t.val % 8) + (x 0).val) (hk1 : (k 1).val = (x 1).val) :
    (iblk (F := Ideal) m c 1 t : Vec Ideal S2048x256 .bf16) x = (V (F := Ideal) m c main_v0 : S16384x256.Idx → Elt Ideal .bf16) k := by
  obtain ⟨e0, e1⟩ := idx1 t
  unfold iblk
  rw [View.read_apply]
  show V m c main_v0 _ = V m c main_v0 _
  congr 1
  funext a
  apply Fin.ext
  match a with
  | ⟨0, _⟩ => show win0_1.index t 0 * 2048 + 1 * (x 0).val = (k 0).val; rw [e0, hk0]; omega
  | ⟨1, _⟩ => show win0_1.index t 1 * 256 + 1 * (x 1).val = (k 1).val; rw [e1, hk1]; omega

/-- Window 0's block at point `t` is rows `128 (t / 8) + p`. -/
theorem blk0_apply (c : Dev nD) (t : Fin cfg0.N) (p : Fin 128) (d : Fin 256) :
    (iblk (F := Ideal) m c 0 t : Vec Ideal S128x256 .bf16) (ix2 p d) = Cert.Spec.xr (xin m c) (128 * (t.val / 8) + p.val) d := by
  have hN : cfg0.N = 1024 := N_0
  have ht : t.val < cfg0.N := t.isLt
  have hp : p.val < 128 := p.isLt
  have hlt : 128 * (t.val / 8) + p.val < 16384 := by omega
  unfold Cert.Spec.xr
  rw [dif_pos hlt]
  exact blk0_at m c t (ix2 p d) (ix2 ⟨_, hlt⟩ d) rfl rfl

/-- Window 1's block at point `t` is rows `2048 (t % 8) + q`. -/
theorem blk1_apply (c : Dev nD) (t : Fin cfg0.N) (q : Fin 2048) (d : Fin 256) :
    (iblk (F := Ideal) m c 1 t : Vec Ideal S2048x256 .bf16) (ix2 q d) = Cert.Spec.xr (xin m c) (2048 * (t.val % 8) + q.val) d := by
  have hq : q.val < 2048 := q.isLt
  have hlt : 2048 * (t.val % 8) + q.val < 16384 := by omega
  unfold Cert.Spec.xr
  rw [dif_pos hlt]
  exact blk1_at m c t (ix2 q d) (ix2 ⟨_, hlt⟩ d) rfl rfl

/-! ## One point's step -/

/-- Two blocks whose rows are rows `128 i + p` and `2048 k + q` of `x` give row `p` column block `k`'s mass for row block `i`. -/
theorem mass_of (x0 : Vec Ideal S128x256 .bf16) (x1 : Vec Ideal S2048x256 .bf16) (x : Cert.Spec.SX.Idx → EReal) (i k : ℕ) (p : Fin 128)
    (h0 : ∀ d : Fin 256, x0 (ix2 p d) = Cert.Spec.xr x (128 * i + p.val) d)
    (h1 : ∀ (q : Fin 2048) (d : Fin 256), x1 (ix2 q d) = Cert.Spec.xr x (2048 * k + q.val) d) :
    (∑ q : Fin 2048, Ideal.exp ((∑ d : Fin 256, x0 (ix2 p d) * x1 (ix2 q d)) * 2)) = Cert.Spec.blockMass x i k p := by
  unfold Cert.Spec.blockMass
  refine Finset.sum_congr rfl fun q _ => ?_
  refine congrArg (fun s => Ideal.exp (s * 2)) ?_
  refine Finset.sum_congr rfl fun d _ => ?_
  rw [h0 d, h1 q d]

/-- The column stored back at point `t` over a column `acc`: at row `p`, `acc`'s entry plus the point's block mass. -/
theorem upd_apply (c : Dev nD) (t : Fin cfg0.N) (acc : Vec Ideal S128x1 .f32) (p : Fin 128) :
    k0_pay2 (F := Ideal) (iblk (F := Ideal) m c 0 t) (iblk (F := Ideal) m c 1 t) acc (ix2 p (0 : Fin 1))
      = acc (ix2 p (0 : Fin 1)) + Cert.Spec.blockMass (xin m c) (t.val / 8) (t.val % 8) p :=
  (pay2_apply (iblk (F := Ideal) m c 0 t) (iblk (F := Ideal) m c 1 t) acc p).trans
    (congrArg (acc (ix2 p (0 : Fin 1)) + ·)
      (mass_of (iblk (F := Ideal) m c 0 t) (iblk (F := Ideal) m c 1 t) (xin m c) (t.val / 8) (t.val % 8) p
        (fun d => blk0_apply m c t p d) (fun q d => blk1_apply m c t q d)))

/-- At a resetting point the running sum of row `p` is the point's block mass alone. -/
theorem acc_reset (c : Dev nD) (t : Fin cfg0.N) (h0 : t.val % 8 = 0) (p : Fin 128) :
    (outsAt0 (F := Ideal) m c t.val t.isLt).2 (ix2 p (0 : Fin 1)) = Cert.Spec.blockMass (xin m c) (t.val / 8) (t.val % 8) p := by
  rw [outsAt0_A m c t h0]
  dsimp only
  rw [sout0_A_0_eq c (grid0.coords t) (ms0_0 t) (hs0_0 t) (ms0_1 t) (hs0_1 t) (ms0_2 t) (hs0_2 t) scM0_0 (Memref.isWhole_whole _)
    ((hcond0_0 t).mpr h0) (not_c1_of_mod0 t h0) (iblk m c 0 t) (iblk m c 1 t)]
  refine (upd_apply m c t _ p).trans ?_
  rw [pay1_apply, zero_add]

/-- At any other point it is what the point before left plus the point's block mass. -/
theorem acc_step (c : Dev nD) (t : Fin cfg0.N) (h0 : ¬t.val % 8 = 0) (p : Fin 128) :
    (outsAt0 (F := Ideal) m c t.val t.isLt).2 (ix2 p (0 : Fin 1))
      = (outsAt0 (F := Ideal) m c (t.val - 1) (Nat.lt_of_le_of_lt (Nat.sub_le _ _) t.isLt)).2 (ix2 p (0 : Fin 1))
        + Cert.Spec.blockMass (xin m c) (t.val / 8) (t.val % 8) p := by
  by_cases h1 : t.val % 8 = 7
  · rw [outsAt0_C m c t h0 h1]
    dsimp only
    rw [sout0_C_0_eq c (grid0.coords t) (ms0_0 t) (hs0_0 t) (ms0_1 t) (hs0_1 t) (ms0_2 t) (hs0_2 t) scM0_0 (Memref.isWhole_whole _)
      (not_c0_of_ne t h0) ((hcond0_1 t).mpr h1) (iblk m c 0 t) (iblk m c 1 t)]
    exact upd_apply m c t _ p
  · rw [outsAt0_B m c t h0 h1]
    dsimp only
    rw [sout0_B_0_eq c (grid0.coords t) (ms0_0 t) (hs0_0 t) (ms0_1 t) (hs0_1 t) (ms0_2 t) (hs0_2 t) scM0_0 (Memref.isWhole_whole _)
      (not_c0_of_ne t h0) (not_c1_of_ne t h1) (iblk m c 0 t) (iblk m c 1 t)]
    exact upd_apply m c t _ p

/-! ## The running sums -/

/-- After point `n` the running sum of row `p` is the masses of column blocks `0 … n % 8` of row block `n / 8`. -/
theorem acc_nat (c : Dev nD) (p : Fin 128) (n : ℕ) : ∀ hn : n < cfg0.N,
    (outsAt0 (F := Ideal) m c n hn).2 (ix2 p (0 : Fin 1))
      = ∑ k ∈ Finset.range (n % 8 + 1), Cert.Spec.blockMass (xin m c) (n / 8) k p := by
  induction n with
  | zero =>
    intro hn
    refine (acc_reset m c ⟨0, hn⟩ (Nat.zero_mod 8) p).trans ?_
    show Cert.Spec.blockMass (xin m c) (0 / 8) (0 % 8) p = _
    rw [Nat.zero_mod, Nat.zero_add, Finset.sum_range_one]
  | succ n ih =>
    intro hn
    by_cases h0 : (n + 1) % 8 = 0
    · refine (acc_reset m c ⟨n + 1, hn⟩ h0 p).trans ?_
      show Cert.Spec.blockMass (xin m c) ((n + 1) / 8) ((n + 1) % 8) p = _
      rw [h0, Nat.zero_add, Finset.sum_range_one]
    · refine (acc_step m c ⟨n + 1, hn⟩ h0 p).trans ?_
      show (outsAt0 (F := Ideal) m c n (Nat.lt_of_succ_lt hn)).2 (ix2 p (0 : Fin 1))
        + Cert.Spec.blockMass (xin m c) ((n + 1) / 8) ((n + 1) % 8) p = _
      rw [ih (Nat.lt_of_succ_lt hn)]
      have hd : (n + 1) / 8 = n / 8 := by omega
      have hm : (n + 1) % 8 = n % 8 + 1 := by omega
      rw [hd, hm, Finset.sum_range_succ (fun k => Cert.Spec.blockMass (xin m c) (n / 8) k p) (n % 8 + 1)]

/-- After point `t` the running sum of row `p` is the masses of column blocks `0 … t % 8`. -/
theorem acc_eq (c : Dev nD) (t : Fin cfg0.N) (p : Fin 128) :
    (outsAt0 (F := Ideal) m c t.val t.isLt).2 (ix2 p (0 : Fin 1))
      = ∑ k ∈ Finset.range (t.val % 8 + 1), Cert.Spec.blockMass (xin m c) (t.val / 8) k p :=
  acc_nat m c p t.val t.isLt

/-! ## The closing points -/

/-- At a closing point the result block's entry `p` is the logarithm of the running sum the point leaves. -/
theorem closing_log (c : Dev nD) (t : Fin cfg0.N) (h0 : ¬t.val % 8 = 0) (h7 : t.val % 8 = 7) (p : Fin 128) :
    (outsAt0 (F := Ideal) m c t.val t.isLt).1 (ix2 p (0 : Fin 1))
      = Ideal.log ((outsAt0 (F := Ideal) m c t.val t.isLt).2 (ix2 p (0 : Fin 1))) := by
  rw [outsAt0_C m c t h0 h7]
  dsimp only
  rw [out0_C_2_eq c (grid0.coords t) (ms0_0 t) (hs0_0 t) (ms0_1 t) (hs0_1 t) (ms0_2 t) (hs0_2 t) scM0_0 (Memref.isWhole_whole _)
      (not_c0_of_ne t h0) ((hcond0_1 t).mpr h7) (iblk m c 0 t) (iblk m c 1 t),
    sout0_C_0_eq c (grid0.coords t) (ms0_0 t) (hs0_0 t) (ms0_1 t) (hs0_1 t) (ms0_2 t) (hs0_2 t) scM0_0 (Memref.isWhole_whole _)
      (not_c0_of_ne t h0) ((hcond0_1 t).mpr h7) (iblk m c 0 t) (iblk m c 1 t)]
  exact pay3_apply _ p

/-- At a closing point the result block's entry `p` is the logarithm of the eight block masses' sum. -/
theorem out_closing (c : Dev nD) (t : Fin cfg0.N) (h7 : t.val % 8 = 7) (p : Fin 128) :
    (outsAt0 (F := Ideal) m c t.val t.isLt).1 (ix2 p (0 : Fin 1))
      = Ideal.log (∑ k ∈ Finset.range 8, Cert.Spec.blockMass (xin m c) (t.val / 8) k p) := by
  have h0 : ¬t.val % 8 = 0 := by omega
  have e : t.val % 8 + 1 = 8 := by omega
  rw [closing_log m c t h0 h7 p, acc_eq m c t p, e]

end Cert.KernelIdeal.Hand

end
-- ==== Proof.KIFinal.lean ====
/-
  The kernel program's result is the loss.

  The result column's block `i` is written back once, at the closing point `8 i + 7`, with the logarithms of the row masses of
  rows `128 i … 128 i + 127`; the 128 blocks cover the column, so after the region its entry `r` is row `r`'s log-sum-exp of the
  converted matrix, which over the extended reals is the argument matrix itself (the conversion is the identity there). The
  four lines after the region sum the column from zero and divide by 100.
-/
import proofs.«136624_j59433757442322_1_alg».proof.Proof.KIAcc
import proofs.«136624_j59433757442322_1_alg».proof.Proof.KITail
import Idealize.ShloMosaic.Lib.StableHlo.Run
import Idealize.ShloMosaic.Lib.ReduceAll

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The converted matrix -/

/-- Over the extended reals the converted matrix is the argument matrix. -/
theorem xin_eq (c : Dev nD) : xin m c = (m ((c.tc : Thread nD τ).loc main_arg0) : Cert.Spec.SX.Idx → EReal) := by
  have e : @Eq (S16384x256.Idx → EReal) (V (F := Ideal) m c main_v0)
      (truncf (F := Ideal) (s := S16384x256) (φ := .f32) .bf16 (m ((c.tc : Thread nD τ).loc main_arg0)) bitsLt_bf16_f32) := by
    show StableHlo.after hostOps0 (fun b => m (c, b)) (Proc.devRef .tc main_v0) = _
    after_results
  show (V (F := Ideal) m c main_v0 : S16384x256.Idx → EReal) = _
  rw [e]
  funext i
  rfl

/-! ## A row's mass from its eight block masses, by block and row within the block -/

/-- Row `p` of row block `i` is row `128 i + p` of the matrix: its eight block masses add up to that row's mass. -/
theorem blocks_rowMass_at (x : Cert.Spec.SX.Idx → EReal) (i : ℕ) (p : Fin 128) (h : 128 * i + p.val < 16384) :
    ∑ k ∈ Finset.range 8, Cert.Spec.blockMass x i k p = Cert.Spec.rowMass x ⟨128 * i + p.val, h⟩ := by
  have hp : p.val < 128 := p.isLt
  have e1 : (128 * i + p.val) / 128 = i := by omega
  have e2 : (⟨(128 * i + p.val) % 128, Nat.mod_lt _ (by norm_num)⟩ : Fin 128) = p :=
    Fin.ext (by show (128 * i + p.val) % 128 = p.val; omega)
  have key : ∑ k ∈ Finset.range 8, Cert.Spec.blockMass x ((128 * i + p.val) / 128) k ⟨(128 * i + p.val) % 128, Nat.mod_lt _ (by norm_num)⟩
      = Cert.Spec.rowMass x ⟨128 * i + p.val, h⟩ := Cert.Spec.blocks_rowMass x ⟨128 * i + p.val, h⟩
  rw [e1, e2] at key
  exact key

/-! ## The result column -/

/-- The column of the rows' log-sum-exps. -/
abbrev lseCol (c : Dev nD) : S16384x1.Idx → EReal := fun i => Cert.Spec.rowLse (xin m c) ⟨(i 0).val, idx2_lt0 i⟩

/-- Window 2's block index at point `t` is `(t / 8, 0)`. -/
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- A column read through window 2's block at point `t`: entry `y` is the column's entry `k` whose row is `128 (t / 8)` plus `y`'s. -/
theorem blk2_read (t : Fin cfg0.N) (G : S16384x1.Idx → EReal) (y : S128x1.Idx) (k : S16384x1.Idx)
    (hk0 : (k 0).val = 128 * (t.val / 8) + (y 0).val) (hk1 : (k 1).val = (y 1).val) :
    (((cfg0.win 2).blk t).view.read (Elt Ideal) G : Vec Ideal S128x1 .f32) y = G k := by
  obtain ⟨e0, e1⟩ := idx2 t
  rw [View.read_apply]
  show G _ = G _
  congr 1
  funext a
  apply Fin.ext
  match a with
  | ⟨0, _⟩ => show win0_2.index t 0 * 128 + 1 * (y 0).val = (k 0).val; rw [e0, hk0]; omega
  | ⟨1, _⟩ => show win0_2.index t 1 * 1 + 1 * (y 1).val = (k 1).val; rw [e1, hk1]; omega

/-- What a closing point leaves in the result block is that block of the column of log-sum-exps. -/
theorem closing_apply (c : Dev nD) (t : Fin cfg0.N) (h7 : t.val % 8 = 7) (y : S128x1.Idx) :
    (outsAt0 (F := Ideal) m c t.val t.isLt).1 y
      = (((cfg0.win 2).blk t).view.read (Elt Ideal) (lseCol m c) : Vec Ideal S128x1 .f32) y := by
  have hN : cfg0.N = 1024 := N_0
  have ht : t.val < cfg0.N := t.isLt
  obtain ⟨p, u, rfl⟩ : ∃ (p : Fin 128) (u : Fin 1), y = ix2 p u := ⟨y 0, y 1, eq_ix2 y⟩
  obtain rfl : u = 0 := Subsingleton.elim _ _
  have hp : p.val < 128 := p.isLt
  have hlt : 128 * (t.val / 8) + p.val < 16384 := by omega
  rw [blk2_read t (lseCol m c) (ix2 p (0 : Fin 1)) (ix2 ⟨128 * (t.val / 8) + p.val, hlt⟩ (0 : Fin 1)) rfl rfl]
  rw [out_closing m c t h7 p]
  show _ = Cert.Spec.rowLse (xin m c) ⟨128 * (t.val / 8) + p.val, hlt⟩
  unfold Cert.Spec.rowLse
  exact congrArg Ideal.log (blocks_rowMass_at (xin m c) (t.val / 8) p hlt)

/-- What a flushing point writes back is its block of the column of log-sum-exps. -/
theorem flushed_eq (c : Dev nD) (t : Fin cfg0.N) (hf : (cfg0.win 2).flush t = true) :
    (dats (F := Ideal) m 0 c).flushed 2 t = ((cfg0.win 2).blk t).view.read (Elt Ideal) (lseCol m c) := by
  have h7 : t.val % 8 = 7 := (flush0_2 t).mp hf
  show (cfg0.win 2).cut (grid0.coords t) ((dats (F := Ideal) m 0 c).after 2 t) = _
  rw [after0_2]
  exact funext fun y => closing_apply m c t h7 y

/-- An index of the column is in point `t`'s block iff each coordinate is in the block's range on its axis. -/
theorem mem_blk2 (t : Fin cfg0.N) (i : S16384x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v1).slice (win0_2.rect t)).set ↔ _
  rw [View.set_slice_whole, Rect.mem_set_unit]
  exact Iff.rfl

/-- Row `r` of the column lies in the block written back at the closing point of row block `r / 128`. -/
theorem cover2 (i : S16384x1.Idx) :
    ∃ t : Fin cfg0.N, (cfg0.win 2).flush t = true ∧ i ∈ ((cfg0.win 2).blk t).view.set := by
  have hN : cfg0.N = 1024 := N_0
  have hi0 : (i 0).val < 16384 := (i 0).isLt
  have hi1 : (i 1).val < 1 := (i 1).isLt
  obtain ⟨t, ht⟩ : ∃ t : Fin cfg0.N, t.val = 8 * ((i 0).val / 128) + 7 := ⟨⟨8 * ((i 0).val / 128) + 7, by omega⟩, rfl⟩
  obtain ⟨e0, e1⟩ := idx2 t
  refine ⟨t, (flush0_2 t).mpr (by omega), ?_⟩
  rw [mem_blk2]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1 ≤ (i 1).val ∧ (i 1).val < win0_2.index t (1 : Fin 2) * 1 + 1; omega

/-- So after the region the result column is the column of log-sum-exps. -/
theorem final_col (c : Dev nD) : (dats (F := Ideal) m 0 c).arrAt 2 cfg0.N = lseCol m c :=
  (dats (F := Ideal) m 0 c).arrAt_eq_of_cover 2 (lseCol m c) (flushed_eq m c) (fun i => cover2 i)

/-- After the region the result column's entry `r` is row `r`'s log-sum-exp. -/
theorem column_eq (c : Dev nD) (r : Fin 16384) :
    ((dats (F := Ideal) m 0 c).arrAt 2 cfg0.N : S16384x1.Idx → EReal) (ix2 r (0 : Fin 1)) = Cert.Spec.rowLse (xin m c) r := by
  rw [final_col m c]

/-! ## The lines after the region -/

/-- The word `0x42C80000` denotes one hundred. -/
theorem ofBits_hundred : Ideal.ofBits .f32 0x42C80000#32 = ((100 : ℝ) : EReal) := by
  simp [Ideal.ofBits, Ideal.ieee, -EReal.coe_mul]; norm_num

/-- The lines' value of a column: its entries' sum over 100. -/
theorem tailVal_apply (y : S16384x1.Idx → EReal) (i : S_.Idx) :
    tailVal (F := Ideal) y i = Ideal.div (∑ r : Fin 16384, y (ix2 r (0 : Fin 1))) ((100 : ℝ) : EReal) := by
  unfold tailVal
  show Ideal.div (Host.reduceAdd (F := Ideal) y (constant (F := Ideal) S_ .f32 0x00000000#32) reducesTo_S16384x1_S_d0_1 h_S_ i)
      (Ideal.ofBits .f32 0x42C80000#32) = _
  rw [ofBits_hundred]
  refine congrArg (fun s => Ideal.div s ((100 : ℝ) : EReal)) ?_
  simp only [Host.reduceAdd, Ideal.hostReduceAdd_def]
  refine (Ideal.hostReduceAdd_total reducesTo_S16384x1_S_d0_1 (fun b => b.elim0) y _ i).trans ?_
  rw [sum_idx2]
  show Ideal.ofBits .f32 0x00000000#32 + _ = _
  rw [Ideal.ofBits_zero_f32, zero_add]
  exact Finset.sum_congr rfl fun r _ => Fin.sum_univ_one _

/-- The lines after the region turn the result column into the loss. -/
theorem kernel_value (c : Dev nD) :
    tailVal (F := Ideal) ((dats (F := Ideal) m 0 c).arrAt 2 cfg0.N) = fun _ => Cert.Spec.loss (m ((c.tc : Thread nD τ).loc main_arg0)) := by
  funext i
  refine (tailVal_apply _ i).trans ?_
  rw [← xin_eq m c]
  unfold Cert.Spec.loss
  refine congrArg (fun s => Ideal.div s ((100 : ℝ) : EReal)) ?_
  exact Finset.sum_congr rfl fun r _ => column_eq m c r

end Cert.KernelIdeal.Hand

end
-- ==== Proof.RefValue.lean ====
/-
  The reference's result, read one operation at a time, is the loss of `Spec.lean`: the product of the matrix with its
  transpose is the Gram matrix, the division by 1/2 the product with 2, the row sum and the logarithm the rows'
  log-sum-exps, the sum over the rows and the division by 100 the loss.
-/
import proofs.«136624_j59433757442322_1_alg».proof.Defs
import proofs.«136624_j59433757442322_1_alg».proof.Proof.Gen.ReferenceIdeal.Run
import proofs.«136624_j59433757442322_1_alg».proof.Proof.Gen.ReferenceIdeal.Read
import proofs.«136624_j59433757442322_1_alg».proof.Proof.Spec

noncomputable section

open scoped BigOperators

namespace Cert.RefValue

open Idealize.ShloMosaic Idealize.ShloMosaic.ValueIdx Cert.ReferenceIdeal Cert.ReferenceIdeal.Gen Cert.ReferenceIdeal.Read

/-! ## A sum over a rank-1 index set is the sum over its coordinate -/

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- So a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The two constants that are not zero -/

/-- The word `0x3F000000` denotes one half. -/
theorem ofBits_half : Ideal.ofBits .f32 0x3F000000#32 = (((1 : ℝ) / 2 : ℝ) : EReal) := by
  simp [Ideal.ofBits, Ideal.ieee, -EReal.coe_mul]; norm_num

/-- The word `0x42C80000` denotes one hundred. -/
theorem ofBits_hundred : Ideal.ofBits .f32 0x42C80000#32 = ((100 : ℝ) : EReal) := by
  simp [Ideal.ofBits, Ideal.ieee, -EReal.coe_mul]; norm_num

/-- Dividing by one half is multiplying by two, on every extended real. -/
theorem div_half (x : EReal) : Ideal.div x (Ideal.ofBits .f32 0x3F000000#32) = x * 2 := by
  rw [ofBits_half, Ideal.div_coe (by norm_num)]
  have h2 : (((1 : ℝ) / ((1 : ℝ) / 2) : ℝ) : EReal) = 2 := by
    rw [show (1 : ℝ) / ((1 : ℝ) / 2) = ((2 : ℕ) : ℝ) by norm_num, EReal.coe_natCast]
    rfl
  rw [h2]

/-! ## The stages, read at coordinates -/

/-- The product with the transpose at `(r, j)` is the inner product of rows `r` and `j`. -/
theorem v1_eq (x0 : (⟨S16384x256, .f32⟩ : BufTy).Contents (Elt Ideal)) (r j : Fin 16384) :
    val_main_v1 (F := Ideal) x0 (ix2 r j) = Cert.Spec.gram x0 r j := by
  rw [val_main_v1_apply]
  unfold Cert.Spec.gram
  refine Finset.sum_congr rfl fun d _ => ?_
  rw [val_main_v0_apply]
  have el : lidx_main_v1 (ix2 r j) d = ix2 r d :=
    funext fun a => Fin.ext (by match a with | ⟨0, _⟩ => rfl | ⟨1, _⟩ => rfl)
  have er : idx_main_v0 (ridx_main_v1 (ix2 r j) d) = ix2 j d :=
    funext fun a => Fin.ext (by match a with | ⟨0, _⟩ => rfl | ⟨1, _⟩ => rfl)
  rw [el, er]

/-- The exponential stage at `(r, j)`. -/
theorem v4_eq (x0 : (⟨S16384x256, .f32⟩ : BufTy).Contents (Elt Ideal)) (r j : Fin 16384) :
    val_main_v4 (F := Ideal) x0 (ix2 r j) = Ideal.exp (Cert.Spec.gram x0 r j * 2) := by
  rw [val_main_v4_apply, val_main_v3_apply, val_main_v2_apply, val_main_cst_apply, v1_eq]
  simp only [Ideal.hostUnary_exp_def, Ideal.hostDivf_def, Ideal.ofBits_def]
  rw [div_half]

/-- The logarithm stage at row `r` is the row's log-sum-exp. -/
theorem v6_eq (x0 : (⟨S16384x256, .f32⟩ : BufTy).Contents (Elt Ideal)) (r : Fin 16384) :
    val_main_v6 (F := Ideal) x0 (ix1 r) = Cert.Spec.rowLse x0 r := by
  rw [val_main_v6_apply, val_main_v5_apply, val_main_cst_0_apply]
  simp only [Ideal.hostUnary_log_def, Ideal.ofBits_def, Ideal.ofBits_zero_f32, zero_add]
  unfold Cert.Spec.rowLse Cert.Spec.rowMass
  refine congrArg Ideal.log (Finset.sum_congr rfl fun j _ => ?_)
  have e : idx_main_v5 (ix1 r) j = ix2 r j :=
    funext fun a => Fin.ext (by match a with | ⟨0, _⟩ => rfl | ⟨1, _⟩ => rfl)
  rw [e, v4_eq]

/-- The reference's last stage, as a function of the argument matrix, is the loss. -/
theorem ref_eq (x0 : (⟨S16384x256, .f32⟩ : BufTy).Contents (Elt Ideal)) :
    val_main_v8 (F := Ideal) x0 = fun _ => Cert.Spec.loss x0 := by
  funext i
  rw [val_main_v8_apply, val_main_v7_apply, val_main_cst_1_apply, val_main_cst_2_apply]
  simp only [Ideal.hostDivf_def, Ideal.ofBits_def, Ideal.ofBits_zero_f32, zero_add, ofBits_hundred]
  unfold Cert.Spec.loss
  refine congrArg (fun s => Ideal.div s ((100 : ℝ) : EReal)) ?_
  rw [sum_idx1]
  exact Finset.sum_congr rfl fun r _ => v6_eq x0 r

end Cert.RefValue

end
-- ==== Proof.lean ====
/-
  The certificate's five claims.

  Both printed kernel programs (the word-level one and its idealization, the same text read at two instances) run to the
  end, fault nowhere and leave the argument matrix unchanged: the launch of the one kernel region from its proof data and
  body obligation, written once for any float instance. The idealization rewrote nothing, so the preservation claim is
  trivial. Over the extended reals the kernel program's result is the loss of Spec.lean — the sum over the rows of the
  logarithm of the row's sum of exp (2 · inner product), divided by 100 —, accumulated column block by column block, and
  the reference's result, read one operation at a time, is the same loss; the reference's frame is its run.
-/
import proofs.«136624_j59433757442322_1_alg».proof.Defs
import proofs.«136624_j59433757442322_1_alg».proof.Proof.Gen.Kernel
import proofs.«136624_j59433757442322_1_alg».proof.Proof.Gen.KernelIdeal
import proofs.«136624_j59433757442322_1_alg».proof.Proof.Gen.ReferenceIdeal
import proofs.«136624_j59433757442322_1_alg».proof.Proof.Gen.Pre_finite_inputs
import proofs.«136624_j59433757442322_1_alg».proof.Proof.Gen.ReferenceIdeal.Run
import proofs.«136624_j59433757442322_1_alg».proof.Proof.Gen.ReferenceIdeal.Read
import proofs.«136624_j59433757442322_1_alg».proof.Proof.KData
import proofs.«136624_j59433757442322_1_alg».proof.Proof.KLaunch
import proofs.«136624_j59433757442322_1_alg».proof.Proof.KIData
import proofs.«136624_j59433757442322_1_alg».proof.Proof.KILaunch
import proofs.«136624_j59433757442322_1_alg».proof.Proof.KIFinal
import proofs.«136624_j59433757442322_1_alg».proof.Proof.RefValue

noncomputable section

namespace Cert.Proof

open Idealize.ShloMosaic Idealize.ShloMosaic.TcCoe Idealize.SL.Sem

/-- The word-level kernel program runs and keeps its argument. -/
theorem frame_k : Cert.frame_Kernel := fun m ρ _ =>
  (θ_run Cert.Kernel.defs _ _).mono (fun _ h c => (h c).2)
    (Cert.Kernel.Hand.run_main (F := Bits) m ρ (Cert.Kernel.Hand.dats m) (Cert.Kernel.Hand.A_eq m)
      (Cert.Kernel.Hand.q0_eq m) (Cert.Kernel.Hand.q1_eq m) (fun _ _ => rfl)
      (fun c => (Cert.Kernel.Hand.body_obligation m c).loose) (Cert.Kernel.Hand.hin m) (Cert.Kernel.Hand.hout m))

/-- The idealized kernel program runs and keeps its argument. -/
theorem frame_ki : Cert.frame_KernelIdeal := fun m ρ _ =>
  (θ_run Cert.KernelIdeal.defs _ _).mono (fun _ h c => (h c).2)
    (Cert.KernelIdeal.Hand.run_main (F := Ideal) m ρ (Cert.KernelIdeal.Hand.dats m) (Cert.KernelIdeal.Hand.A_eq m)
      (Cert.KernelIdeal.Hand.q0_eq m) (Cert.KernelIdeal.Hand.q1_eq m) (fun _ _ => rfl)
      (fun c => (Cert.KernelIdeal.Hand.body_obligation m c).loose) (Cert.KernelIdeal.Hand.hin m) (Cert.KernelIdeal.Hand.hout m))

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument matrix both programs end at the loss of that matrix. -/
theorem algebraic : Cert.algebraic_KernelIdeal_ReferenceIdeal := by
  intro m ρ m' ρ' _ hagree
  refine ⟨fun c => fun _ => Cert.Spec.loss (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ (Cert.KernelIdeal.Hand.dats m) (Cert.KernelIdeal.Hand.A_eq m)
      (Cert.KernelIdeal.Hand.q0_eq m) (Cert.KernelIdeal.Hand.q1_eq m) (fun _ _ => rfl)
      (fun c => (Cert.KernelIdeal.Hand.body_obligation m c).loose) (Cert.KernelIdeal.Hand.hin m) (Cert.KernelIdeal.Hand.hout m))
  · refine (θ_run Cert.ReferenceIdeal.defs _ _).mono (fun _ h c => ⟨(h c).1.trans ?_, (h c).2⟩)
      (Cert.ReferenceIdeal.Value.run (F := Ideal) m' ρ')
    rw [hagree c]
    exact (Cert.ReferenceIdeal.Read.val_main_v8_eq _).trans (Cert.RefValue.ref_eq _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
